-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg25 : FVec F S16x1 .f32) (main_arg26 : FVec F S1 .f32) (main_v118 : IVec S_ 1) (main_v119 : FVec F S16 .f32) : IVec S_ 1 :=
  let main_cst_46 : FVec F S_ .f32 := constant S_ .f32 0x7F800000#32
  let main_v120 : FVec F S16 .f32 := broadcastInDim S16 ![] bcast_S_S16 main_cst_46
  let main_v121 : IVec S16 1 := cmpf .olt main_v119 main_v120
  let main_c_47 : IVec S_ 1 := constantI S_ 1 1#1
  let main_v122 : IVec S_ 1 := (fun x v => Host.reduce IntOp.andi x v reducesTo_S16_S_d0 h_S_) main_v121 main_c_47
  let main_v123 : IVec S_ 1 := andi main_v118 main_v122
  let main_v124 : FVec F S16x1 .f32 := Host.absf main_arg25
  let main_cst_48 : FVec F S_ .f32 := constant S_ .f32 0x7F800000#32
  let main_v125 : FVec F S16x1 .f32 := broadcastInDim S16x1 ![] bcast_S_S16x1 main_cst_48
  let main_v126 : IVec S16x1 1 := cmpf .olt main_v124 main_v125
  let main_c_49 : IVec S_ 1 := constantI S_ 1 1#1
  let main_v127 : IVec S_ 1 := (fun x v => Host.reduce IntOp.andi x v reducesTo_S16x1_S_d0_1 h_S_) main_v126 main_c_49
  let main_v128 : IVec S_ 1 := andi main_v123 main_v127
  let main_v129 : FVec F S1 .f32 := Host.absf main_arg26
  let main_cst_50 : FVec F S_ .f32 := constant S_ .f32 0x7F800000#32
  let main_v130 : FVec F S1 .f32 := broadcastInDim S1 ![] bcast_S_S1 main_cst_50
  let main_v131 : IVec S1 1 := cmpf .olt main_v129 main_v130
  let main_c_51 : IVec S_ 1 := constantI S_ 1 1#1
  let main_v132 : IVec S_ 1 := (fun x v => Host.reduce IntOp.andi x v reducesTo_S1_S_d0 h_S_) main_v131 main_c_51
  let main_v133 : IVec S_ 1 := andi main_v128 main_v132
  main_v133

def fn_part6 {F : FTy → Type} [FloatOps F] (main_arg21 : FVec F S1024x512 .f32) (main_arg22 : FVec F S512 .f32) (main_arg23 : FVec F S512x16 .f32) (main_arg24 : FVec F S16 .f32) (main_arg25 : FVec F S16x1 .f32) (main_arg26 : FVec F S1 .f32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_v104 : FVec F S1024x512 .f32 := Host.absf main_arg21
  let main_cst_40 : FVec F S_ .f32 := constant S_ .f32 0x7F800000#32
  let main_v105 : FVec F S1024x512 .f32 := broadcastInDim S1024x512 ![] bcast_S_S1024x512 main_cst_40
  let main_v106 : IVec S1024x512 1 := cmpf .olt main_v104 main_v105
  let main_c_41 : IVec S_ 1 := constantI S_ 1 1#1
  let main_v107 : IVec S_ 1 := (fun x v => Host.reduce IntOp.andi x v reducesTo_S1024x512_S_d0_1 h_S_) main_v106 main_c_41
  let main_v108 : IVec S_ 1 := andi main_v103 main_v107
  let main_v109 : FVec F S512 .f32 := Host.absf main_arg22
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S512x16 .f32 := Host.absf main_arg23
  let main_cst_44 : FVec F S_ .f32 := constant S_ .f32 0x7F800000#32
  let main_v115 : FVec F S512x16 .f32 := broadcastInDim S512x16 ![] bcast_S_S512x16 main_cst_44
  let main_v116 : IVec S512x16 1 := cmpf .olt main_v114 main_v115
  let main_c_45 : IVec S_ 1 := constantI S_ 1 1#1
  let main_v117 : IVec S_ 1 := (fun x v => Host.reduce IntOp.andi x v reducesTo_S512x16_S_d0_1 h_S_) main_v116 main_c_45
  let main_v118 : IVec S_ 1 := andi main_v113 main_v117
  let main_v119 : FVec F S16 .f32 := Host.absf main_arg24
  fn_part7 (F := F) main_arg25 main_arg26 main_v118 main_v119

def fn_part5 {F : FTy → Type} [FloatOps F] (main_arg18 : FVec F S16 .f32) (main_arg19 : FVec F S16x1 .f32) (main_arg20 : FVec F S1 .f32) (main_arg21 : FVec F S1024x512 .f32) (main_arg22 : FVec F S512 .f32) (main_arg23 : FVec F S512x16 .f32) (main_arg24 : FVec F S16 .f32) (main_arg25 : FVec F S16x1 .f32) (main_arg26 : FVec F S1 .f32) (main_v83 : IVec S_ 1) (main_v84 : FVec F S512x16 .f32) (main_cst_32 : FVec F S_ .f32) : IVec S_ 1 :=
  let main_v85 : FVec F S512x16 .f32 := broadcastInDim S512x16 ![] bcast_S_S512x16 main_cst_32
  let main_v86 : IVec S512x16 1 := cmpf .olt main_v84 main_v85
  let main_c_33 : IVec S_ 1 := constantI S_ 1 1#1
  let main_v87 : IVec S_ 1 := (fun x v => Host.reduce IntOp.andi x v reducesTo_S512x16_S_d0_1 h_S_) main_v86 main_c_33
  let main_v88 : IVec S_ 1 := andi main_v83 main_v87
  let main_v89 : FVec F S16 .f32 := Host.absf main_arg18
  let main_cst_34 : FVec F S_ .f32 := constant S_ .f32 0x7F800000#32
  let main_v90 : FVec F S16 .f32 := broadcastInDim S16 ![] bcast_S_S16 main_cst_34
  let main_v91 : IVec S16 1 := cmpf .olt main_v89 main_v90
  let main_c_35 : IVec S_ 1 := constantI S_ 1 1#1
  let main_v92 : IVec S_ 1 := (fun x v => Host.reduce IntOp.andi x v reducesTo_S16_S_d0 h_S_) main_v91 main_c_35
  let main_v93 : IVec S_ 1 := andi main_v88 main_v92
  let main_v94 : FVec F S16x1 .f32 := Host.absf main_arg19
  let main_cst_36 : FVec F S_ .f32 := constant S_ .f32 0x7F800000#32
  let main_v95 : FVec F S16x1 .f32 := broadcastInDim S16x1 ![] bcast_S_S16x1 main_cst_36
  let main_v96 : IVec S16x1 1 := cmpf .olt main_v94 main_v95
  let main_c_37 : IVec S_ 1 := constantI S_ 1 1#1
  let main_v97 : IVec S_ 1 := (fun x v => Host.reduce IntOp.andi x v reducesTo_S16x1_S_d0_1 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S1 .f32) (main_arg15 : FVec F S1024x512 .f32) (main_arg16 : FVec F S512 .f32) (main_arg17 : FVec F S512x16 .f32) (main_arg18 : FVec F S16 .f32) (main_arg19 : FVec F S16x1 .f32) (main_arg20 : FVec F S1 .f32) (main_arg21 : FVec F S1024x512 .f32) (main_arg22 : FVec F S512 .f32) (main_arg23 : FVec F S512x16 .f32) (main_arg24 : FVec F S16 .f32) (main_arg25 : FVec F S16x1 .f32) (main_arg26 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S1024x512 .f32 := Host.absf main_arg15
  let main_cst_28 : FVec F S_ .f32 := constant S_ .f32 0x7F800000#32
  let main_v75 : FVec F S1024x512 .f32 := broadcastInDim S1024x512 ![] bcast_S_S1024x512 main_cst_28
  let main_v76 : IVec S1024x512 1 := cmpf .olt main_v74 main_v75
  let main_c_29 : IVec S_ 1 := constantI S_ 1 1#1
  let main_v77 : IVec S_ 1 := (fun x v => Host.reduce IntOp.andi x v reducesTo_S1024x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x16 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S512x16 .f32) (main_arg12 : FVec F S16 .f32) (main_arg13 : FVec F S16x1 .f32) (main_arg14 : FVec F S1 .f32) (main_arg15 : FVec F S1024x512 .f32) (main_arg16 : FVec F S512 .f32) (main_arg17 : FVec F S512x16 .f32) (main_arg18 : FVec F S16 .f32) (main_arg19 : FVec F S16x1 .f32) (main_arg20 : FVec F S1 .f32) (main_arg21 : FVec F S1024x512 .f32) (main_arg22 : FVec F S512 .f32) (main_arg23 : FVec F S512x16 .f32) (main_arg24 : FVec F S16 .f32) (main_arg25 : FVec F S16x1 .f32) (main_arg26 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x16 .f32 := Host.absf main_arg11
  let main_cst_20 : FVec F S_ .f32 := constant S_ .f32 0x7F800000#32
  let main_v55 : FVec F S512x16 .f32 := broadcastInDim S512x16 ![] bcast_S_S512x16 main_cst_20
  let main_v56 : IVec S512x16 1 := cmpf .olt main_v54 main_v55
  let main_c_21 : IVec S_ 1 := constantI S_ 1 1#1
  let main_v57 : IVec S_ 1 := (fun x v => Host.reduce IntOp.andi x v reducesTo_S512x16_S_d0_1 h_S_) main_v56 main_c_21
  let main_v58 : IVec S_ 1 := andi main_v53 main_v57
  let main_v59 : FVec F S16 .f32 := Host.absf main_arg12
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x1 .f32 := Host.absf main_arg13
  let main_cst_24 : FVec F S_ .f32 := constant S_ .f32 0x7F800000#32
  let main_v65 : FVec F S16x1 .f32 := broadcastInDim S16x1 ![] bcast_S_S16x1 main_cst_24
  let main_v66 : IVec S16x1 1 := cmpf .olt main_v64 main_v65
  let main_c_25 : IVec S_ 1 := constantI S_ 1 1#1
  let main_v67 : IVec S_ 1 := (fun x v => Host.reduce IntOp.andi x v reducesTo_S16x1_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S16x1 .f32) (main_arg8 : FVec F S1 .f32) (main_arg9 : FVec F S1024x512 .f32) (main_arg10 : FVec F S512 .f32) (main_arg11 : FVec F S512x16 .f32) (main_arg12 : FVec F S16 .f32) (main_arg13 : FVec F S16x1 .f32) (main_arg14 : FVec F S1 .f32) (main_arg15 : FVec F S1024x512 .f32) (main_arg16 : FVec F S512 .f32) (main_arg17 : FVec F S512x16 .f32) (main_arg18 : FVec F S16 .f32) (main_arg19 : FVec F S16x1 .f32) (main_arg20 : FVec F S1 .f32) (main_arg21 : FVec F S1024x512 .f32) (main_arg22 : FVec F S512 .f32) (main_arg23 : FVec F S512x16 .f32) (main_arg24 : FVec F S16 .f32) (main_arg25 : FVec F S16x1 .f32) (main_arg26 : FVec F S1 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1024x512 .f32 := Host.absf main_arg9
  let main_cst_16 : FVec F S_ .f32 := constant S_ .f32 0x7F800000#32
  let main_v45 : FVec F S1024x512 .f32 := broadcastInDim S1024x512 ![] bcast_S_S1024x512 main_cst_16
  let main_v46 : IVec S1024x512 1 := cmpf .olt main_v44 main_v45
  let main_c_17 : IVec S_ 1 := constantI S_ 1 1#1
  let main_v47 : IVec S_ 1 := (fun x v => Host.reduce IntOp.andi x v reducesTo_S1024x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S512 .f32) (main_arg5 : FVec F S512x16 .f32) (main_arg6 : FVec F S16 .f32) (main_arg7 : FVec F S16x1 .f32) (main_arg8 : FVec F S1 .f32) (main_arg9 : FVec F S1024x512 .f32) (main_arg10 : FVec F S512 .f32) (main_arg11 : FVec F S512x16 .f32) (main_arg12 : FVec F S16 .f32) (main_arg13 : FVec F S16x1 .f32) (main_arg14 : FVec F S1 .f32) (main_arg15 : FVec F S1024x512 .f32) (main_arg16 : FVec F S512 .f32) (main_arg17 : FVec F S512x16 .f32) (main_arg18 : FVec F S16 .f32) (main_arg19 : FVec F S16x1 .f32) (main_arg20 : FVec F S1 .f32) (main_arg21 : FVec F S1024x512 .f32) (main_arg22 : FVec F S512 .f32) (main_arg23 : FVec F S512x16 .f32) (main_arg24 : FVec F S16 .f32) (main_arg25 : FVec F S16x1 .f32) (main_arg26 : FVec F S1 .f32) (main_v13 : IVec S_ 1) (main_v16 : IVec S1024x512 1) : IVec S_ 1 :=
  let main_c_5 : IVec S_ 1 := constantI S_ 1 1#1
  let main_v17 : IVec S_ 1 := (fun x v => Host.reduce IntOp.andi x v reducesTo_S1024x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x16 .f32 := Host.absf main_arg5
  let main_cst_8 : FVec F S_ .f32 := constant S_ .f32 0x7F800000#32
  let main_v25 : FVec F S512x16 .f32 := broadcastInDim S512x16 ![] bcast_S_S512x16 main_cst_8
  let main_v26 : IVec S512x16 1 := cmpf .olt main_v24 main_v25
  let main_c_9 : IVec S_ 1 := constantI S_ 1 1#1
  let main_v27 : IVec S_ 1 := (fun x v => Host.reduce IntOp.andi x v reducesTo_S512x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S16384x512 .f32) (main_arg1 : FVec F S16384x512 .f32) (main_arg2 : FVec F S16384x512 .f32) (main_arg3 : FVec F S1024x512 .f32) (main_arg4 : FVec F S512 .f32) (main_arg5 : FVec F S512x16 .f32) (main_arg6 : FVec F S16 .f32) (main_arg7 : FVec F S16x1 .f32) (main_arg8 : FVec F S1 .f32) (main_arg9 : FVec F S1024x512 .f32) (main_arg10 : FVec F S512 .f32) (main_arg11 : FVec F S512x16 .f32) (main_arg12 : FVec F S16 .f32) (main_arg13 : FVec F S16x1 .f32) (main_arg14 : FVec F S1 .f32) (main_arg15 : FVec F S1024x512 .f32) (main_arg16 : FVec F S512 .f32) (main_arg17 : FVec F S512x16 .f32) (main_arg18 : FVec F S16 .f32) (main_arg19 : FVec F S16x1 .f32) (main_arg20 : FVec F S1 .f32) (main_arg21 : FVec F S1024x512 .f32) (main_arg22 : FVec F S512 .f32) (main_arg23 : FVec F S512x16 .f32) (main_arg24 : FVec F S16 .f32) (main_arg25 : FVec F S16x1 .f32) (main_arg26 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S1024x512 .f32 := Host.absf main_arg3
  let main_cst_4 : FVec F S_ .f32 := constant S_ .f32 0x7F800000#32
  let main_v15 : FVec F S1024x512 .f32 := broadcastInDim S1024x512 ![] bcast_S_S1024x512 main_cst_4
  let main_v16 : IVec S1024x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S16384x512 : Shape := ⟨2, ![16384, 512]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S16x1 : Shape := ⟨2, ![16, 1]⟩
abbrev S1 : Shape := ⟨1, ![1]⟩
abbrev S256x512 : Shape := ⟨2, ![256, 512]⟩
abbrev S512x512 : Shape := ⟨2, ![512, 512]⟩
abbrev S1x512 : Shape := ⟨2, ![1, 512]⟩
abbrev S256x16 : Shape := ⟨2, ![256, 16]⟩
abbrev S1x16 : Shape := ⟨2, ![1, 16]⟩
abbrev S256x1 : Shape := ⟨2, ![256, 1]⟩
abbrev S1x1 : Shape := ⟨2, ![1, 1]⟩

abbrev nBuf : Space → Nat
  | .hbm => 29
  | .vmem => 34
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S1024x512, .f32⟩
  | .hbm, ⟨4, _⟩ => ⟨S512, .f32⟩
  | .hbm, ⟨5, _⟩ => ⟨S512x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S1024x512, .f32⟩
  | .hbm, ⟨10, _⟩ => ⟨S512, .f32⟩
  | .hbm, ⟨11, _⟩ => ⟨S512x16, .f32⟩
  | .hbm, ⟨12, _⟩ => ⟨S16, .f32⟩
  | .hbm, ⟨13, _⟩ => ⟨S16x1, .f32⟩
  | .hbm, ⟨14, _⟩ => ⟨S1, .f32⟩
  | .hbm, ⟨15, _⟩ => ⟨S1024x512, .f32⟩
  | .hbm, ⟨16, _⟩ => ⟨S512, .f32⟩
  | .hbm, ⟨17, _⟩ => ⟨S512x16, .f32⟩
  | .hbm, ⟨18, _⟩ => ⟨S16, .f32⟩
  | .hbm, ⟨19, _⟩ => ⟨S16x1, .f32⟩
  | .hbm, ⟨20, _⟩ => ⟨S1, .f32⟩
  | .hbm, ⟨21, _⟩ => ⟨S1024x512, .f32⟩
  | .hbm, ⟨22, _⟩ => ⟨S512, .f32⟩
  | .hbm, ⟨23, _⟩ => ⟨S512x16, .f32⟩
  | .hbm, ⟨24, _⟩ => ⟨S16, .f32⟩
  | .hbm, ⟨25, _⟩ => ⟨S16x1, .f32⟩
  | .hbm, ⟨26, _⟩ => ⟨S1, .f32⟩
  | .hbm, ⟨27, _⟩ => ⟨S16384x512, .f32⟩
  | .hbm, ⟨28, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1024x512, .f32⟩
  | .local _ .vmem, ⟨7, _⟩ => ⟨S512, .f32⟩
  | .local _ .vmem, ⟨8, _⟩ => ⟨S512x16, .f32⟩
  | .local _ .vmem, ⟨9, _⟩ => ⟨S16, .f32⟩
  | .local _ .vmem, ⟨10, _⟩ => ⟨S16x1, .f32⟩
  | .local _ .vmem, ⟨11, _⟩ => ⟨S1, .f32⟩
  | .local _ .vmem, ⟨12, _⟩ => ⟨S1024x512, .f32⟩
  | .local _ .vmem, ⟨13, _⟩ => ⟨S512, .f32⟩
  | .local _ .vmem, ⟨14, _⟩ => ⟨S512x16, .f32⟩
  | .local _ .vmem, ⟨15, _⟩ => ⟨S16, .f32⟩
  | .local _ .vmem, ⟨16, _⟩ => ⟨S16x1, .f32⟩
  | .local _ .vmem, ⟨17, _⟩ => ⟨S1, .f32⟩
  | .local _ .vmem, ⟨18, _⟩ => ⟨S1024x512, .f32⟩
  | .local _ .vmem, ⟨19, _⟩ => ⟨S512, .f32⟩
  | .local _ .vmem, ⟨20, _⟩ => ⟨S512x16, .f32⟩
  | .local _ .vmem, ⟨21, _⟩ => ⟨S16, .f32⟩
  | .local _ .vmem, ⟨22, _⟩ => ⟨S16x1, .f32⟩
  | .local _ .vmem, ⟨23, _⟩ => ⟨S1, .f32⟩
  | .local _ .vmem, ⟨24, _⟩ => ⟨S1024x512, .f32⟩
  | .local _ .vmem, ⟨25, _⟩ => ⟨S512, .f32⟩
  | .local _ .vmem, ⟨26, _⟩ => ⟨S512x16, .f32⟩
  | .local _ .vmem, ⟨27, _⟩ => ⟨S16, .f32⟩
  | .local _ .vmem, ⟨28, _⟩ => ⟨S16x1, .f32⟩
  | .local _ .vmem, ⟨29, _⟩ => ⟨S1, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0_0 : Ref sig .tc := ⟨.hbm, 27, rfl⟩
abbrev main_v0_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg26_0 : Ref sig .tc := ⟨.vmem, 29, rfl⟩
abbrev cc0_stg27_0 : Ref sig .tc := ⟨.vmem, 30, rfl⟩
abbrev cc0_stg27_1 : Ref sig .tc := ⟨.vmem, 31, rfl⟩
abbrev cc0_stg28_0 : Ref sig .tc := ⟨.vmem, 32, rfl⟩
abbrev cc0_stg28_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem26_0 : DmaSem sig := 29
abbrev cc0_sem27_0 : DmaSem sig := 30
abbrev cc0_sem27_1 : DmaSem sig := 31
abbrev cc0_sem28_0 : DmaSem sig := 32
abbrev cc0_sem28_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x16 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S16x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x16 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S16 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S16x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S256x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S256x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

class Facts₀ : Prop where
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S1024x512_S512x512_0_0 : ∀ a, (![0, 0] : Fin 2 → Nat) a + S512x512.size a ≤ S1024x512.size a
  h_S512x512 : 0 < S512x512.numel
  inb_S1024x512_S512x512_512_0 : ∀ a, (![512, 0] : Fin 2 → Nat) a + S512x512.size a ≤ S1024x512.size a
  inb_S512_S512_0 : ∀ a, (![0] : Fin 1 → Nat) a + S512.size a ≤ S512.size a
  h_S512 : 0 < S512.numel
  shapeCasts_S512_S1x512 : S512.ShapeCasts S1x512
  broadcasts_S1x512_S256x512 : S1x512.Broadcasts S256x512
  inb_S512x16_S512x16_0_0 : ∀ a, (![0, 0] : Fin 2 → Nat) a + S512x16.size a ≤ S512x16.size a
  h_S512x16 : 0 < S512x16.numel
  inb_S16_S16_0 : ∀ a, (![0] : Fin 1 → Nat) a + S16.size a ≤ S16.size a
  h_S16 : 0 < S16.numel
  shapeCasts_S16_S1x16 : S16.ShapeCasts S1x16
  broadcasts_S1x16_S256x16 : S1x16.Broadcasts S256x16
  inb_S16x1_S16x1_0_0 : ∀ a, (![0, 0] : Fin 2 → Nat) a + S16x1.size a ≤ S16x1.size a
  h_S16x1 : 0 < S16x1.numel
  inb_S1_S1_0 : ∀ a, (![0] : Fin 1 → Nat) a + S1.size a ≤ S1.size a
  h_S1 : 0 < S1.numel
  shapeCasts_S1_S1x1 : S1.ShapeCasts S1x1
  broadcasts_S1x1_S256x1 : S1x1.Broadcasts S256x1
  broadcasts_S256x1_S256x512 : S256x1.Broadcasts S256x512
  dot_S256x512_S512x512_S256x512_1_0_0_1_n_n_wf : DotDims.WF S256x512 S512x512 S256x512 [1] [0] [0] [1] [] []
  dot_S256x512_S512x16_S256x16_1_0_0_1_n_n_wf : DotDims.WF S256x512 S512x16 S256x16 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S16384x512.size a
  hwx0_1 : ∀ i : grid0.Coords, EltTy.bits .f32 = 32 ∨ (Rect.block (s := S16384x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x16.size a ≤ S512x16.size a
  hwx0_5 : ∀ i : grid0.Coords, EltTy.bits .f32 = 32 ∨ (Rect.block (s := S512x16) S512x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16.size a ≤ S16.size a
  hwx0_6 : ∀ i : grid0.Coords, EltTy.bits .f32 = 32 ∨ (Rect.block (s := S16) S16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S16x1.size a
  hwx0_7 : ∀ i : grid0.Coords, EltTy.bits .f32 = 32 ∨ (Rect.block (s := S16x1) S16x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x512.size a ≤ S1024x512.size a
  hwx0_9 : ∀ i : grid0.Coords, EltTy.bits .f32 = 32 ∨ (Rect.block (s := S1024x512) S1024x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x16.size a ≤ S512x16.size a
  hwx0_11 : ∀ i : grid0.Coords, EltTy.bits .f32 = 32 ∨ (Rect.block (s := S512x16) S512x16.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S16.size a ≤ S16.size a
  hwx0_12 : ∀ i : grid0.Coords, EltTy.bits .f32 = 32 ∨ (Rect.block (s := S16) S16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S16x1.size a ≤ S16x1.size a
  hwx0_13 : ∀ i : grid0.Coords, EltTy.bits .f32 = 32 ∨ (Rect.block (s := S16x1) S16x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1024x512.size a ≤ S1024x512.size a
  hwx0_15 : ∀ i : grid0.Coords, EltTy.bits .f32 = 32 ∨ (Rect.block (s := S1024x512) S1024x512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512x16.size a ≤ S512x16.size a
  hwx0_17 : ∀ i : grid0.Coords, EltTy.bits .f32 = 32 ∨ (Rect.block (s := S512x16) S512x16.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S16.size a ≤ S16.size a
  hwx0_18 : ∀ i : grid0.Coords, EltTy.bits .f32 = 32 ∨ (Rect.block (s := S16) S16.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S16x1.size a ≤ S16x1.size a
  hwx0_19 : ∀ i : grid0.Coords, EltTy.bits .f32 = 32 ∨ (Rect.block (s := S16x1) S16x1.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1.size a ≤ S1.size a
  hwx0_20 : ∀ i : grid0.Coords, EltTy.bits .f32 = 32 ∨ (Rect.block (s := S1) S1.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1024x512.size a ≤ S1024x512.size a
  hwx0_21 : ∀ i : grid0.Coords, EltTy.bits .f32 = 32 ∨ (Rect.block (s := S1024x512) S1024x512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S512.size a ≤ S512.size a
  hwx0_22 : ∀ i : grid0.Coords, EltTy.bits .f32 = 32 ∨ (Rect.block (s := S512) S512.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S512x16.size a ≤ S512x16.size a
  hwx0_23 : ∀ i : grid0.Coords, EltTy.bits .f32 = 32 ∨ (Rect.block (s := S512x16) S512x16.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S16.size a ≤ S16.size a
  hwx0_24 : ∀ i : grid0.Coords, EltTy.bits .f32 = 32 ∨ (Rect.block (s := S16) S16.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S16x1.size a ≤ S16x1.size a
  hwx0_25 : ∀ i : grid0.Coords, EltTy.bits .f32 = 32 ∨ (Rect.block (s := S16x1) S16x1.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1.size a ≤ S1.size a
  hwx0_26 : ∀ i : grid0.Coords, EltTy.bits .f32 = 32 ∨ (Rect.block (s := S1) S1.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S256x512.size a ≤ S16384x512.size a
  hwx0_27 : ∀ i : grid0.Coords, EltTy.bits .f32 = 32 ∨ (Rect.block (s := S16384x512) S256x512.size (cc0_transform_27 i) (hinb0_27 i)).WholeWords (EltTy.packing .f32)
  hstage0_28 : ∀ j, (stage0_28 j).IsWhole
  nbuf0_28 : grid0.bufCount reads0_28 false = 2
  hreads0_28 : ∀ i i' : grid0.Coords, (∀ a, reads0_28 a = true → i a = i' a) → cc0_transform_28 i = cc0_transform_28 i'
  hinb0_28 : ∀ (i : grid0.Coords) a, (cc0_transform_28 i a + 1) * S256x512.size a ≤ S16384x512.size a
  hwx0_28 : ∀ i : grid0.Coords, EltTy.bits .f32 = 32 ∨ (Rect.block (s := S16384x512) S256x512.size (cc0_transform_28 i) (hinb0_28 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x16_S256x16_1_0_0_1_n_n : DotDims S256x512 S512x16 S256x16 where
  lhsContracting := [1]
  rhsContracting := [0]
  lhsNonContracting := [0]
  rhsNonContracting := [1]
  lhsBatch := []
  rhsBatch := []
  wf := dot_S256x512_S512x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S16x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1024x512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S512x16.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S16.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S16x1.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S1.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S1024x512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S512x16.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S16.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S16x1.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg26) S1.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v0_0) S256x512.size cc0_transform_27 reads0_27 true false 2 stage0_27 sem0_27
    hrank0 hreads0_27 hinb0_27 nbuf0_27 (Memref.isWhole_whole _) hwx0_27 hstage0_27

abbrev win0_28 : Pipeline.Window sig grid0 :=
  Pipeline.Window.ofSpec (Memref.whole main_v0_1) S256x512.size cc0_transform_28 reads0_28 true false 2 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x512 : Shape := ⟨2, ![1024, 512]⟩
abbrev S512 : Shape := ⟨1, ![512]⟩
abbrev S512x16 : Shape := ⟨2, ![512, 16]⟩
abbrev S16 : Shape := ⟨1, ![16]⟩
abbrev S16x1 : Shape := ⟨2, ![16, 1]⟩
abbrev S1 : Shape := ⟨1, ![1]⟩
abbrev S16384x1024 : Shape := ⟨2, ![16384, 1024]⟩
abbrev S1x512 : Shape := ⟨2, ![1, 512]⟩
abbrev S16384x16 : Shape := ⟨2, ![16384, 16]⟩
abbrev S1x16 : Shape := ⟨2, ![1, 16]⟩
abbrev S_ : Shape := ⟨0, ![]⟩
abbrev S16384x1 : Shape := ⟨2, ![16384, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S1024x512, .f32⟩
  | .hbm, ⟨4, _⟩ => ⟨S512, .f32⟩
  | .hbm, ⟨5, _⟩ => ⟨S512x16, .f32⟩
  | .hbm, ⟨6, _⟩ => ⟨S16, .f32⟩
  | .hbm, ⟨7, _⟩ => ⟨S16x1, .f32⟩
  | .hbm, ⟨8, _⟩ => ⟨S1, .f32⟩
  | .hbm, ⟨9, _⟩ => ⟨S1024x512, .f32⟩
  | .hbm, ⟨10, _⟩ => ⟨S512, .f32⟩
  | .hbm, ⟨11, _⟩ => ⟨S512x16, .f32⟩
  | .hbm, ⟨12, _⟩ => ⟨S16, .f32⟩
  | .hbm, ⟨13, _⟩ => ⟨S16x1, .f32⟩
  | .hbm, ⟨14, _⟩ => ⟨S1, .f32⟩
  | .hbm, ⟨15, _⟩ => ⟨S1024x512, .f32⟩
  | .hbm, ⟨16, _⟩ => ⟨S512, .f32⟩
  | .hbm, ⟨17, _⟩ => ⟨S512x16, .f32⟩
  | .hbm, ⟨18, _⟩ => ⟨S16, .f32⟩
  | .hbm, ⟨19, _⟩ => ⟨S16x1, .f32⟩
  | .hbm, ⟨20, _⟩ => ⟨S1, .f32⟩
  | .hbm, ⟨21, _⟩ => ⟨S1024x512, .f32⟩
  | .hbm, ⟨22, _⟩ => ⟨S512, .f32⟩
  | .hbm, ⟨23, _⟩ => ⟨S512x16, .f32⟩
  | .hbm, ⟨24, _⟩ => ⟨S16, .f32⟩
  | .hbm, ⟨25, _⟩ => ⟨S16x1, .f32⟩
  | .hbm, ⟨26, _⟩ => ⟨S1, .f32⟩
  | .hbm, ⟨27, _⟩ => ⟨S16384x1024, .f32⟩
  | .hbm, ⟨28, _⟩ => ⟨S16384x512, .f32⟩
  | .hbm, ⟨29, _⟩ => ⟨S1x512, .f32⟩
  | .hbm, ⟨30, _⟩ => ⟨S16384x512, .f32⟩
  | .hbm, ⟨31, _⟩ => ⟨S16384x512, .f32⟩
  | .hbm, ⟨32, _⟩ => ⟨S16384x16, .f32⟩
  | .hbm, ⟨33, _⟩ => ⟨S1x16, .f32⟩
  | .hbm, ⟨34, _⟩ => ⟨S16384x16, .f32⟩
  | .hbm, ⟨35, _⟩ => ⟨S16384x16, .f32⟩
  | .hbm, ⟨36, _⟩ => ⟨S_, .f32⟩
  | .hbm, ⟨37, _⟩ => ⟨S16384x16, .f32⟩
  | .hbm, ⟨38, _⟩ => ⟨S16384x16, .f32⟩
  | .hbm, ⟨39, _⟩ => ⟨S16384x1, .f32⟩
  | .hbm, ⟨40, _⟩ => ⟨S1x1, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x512, .f32⟩
  | .hbm, ⟨53, _⟩ => ⟨S1x512, .f32⟩
  | .hbm, ⟨54, _⟩ => ⟨S16384x512, .f32⟩
  | .hbm, ⟨55, _⟩ => ⟨S16384x512, .f32⟩
  | .hbm, ⟨56, _⟩ => ⟨S16384x16, .f32⟩
  | .hbm, ⟨57, _⟩ => ⟨S1x16, .f32⟩
  | .hbm, ⟨58, _⟩ => ⟨S16384x16, .f32⟩
  | .hbm, ⟨59, _⟩ => ⟨S16384x16, .f32⟩
  | .hbm, ⟨60, _⟩ => ⟨S_, .f32⟩
  | .hbm, ⟨61, _⟩ => ⟨S16384x16, .f32⟩
  | .hbm, ⟨62, _⟩ => ⟨S16384x16, .f32⟩
  | .hbm, ⟨63, _⟩ => ⟨S16384x1, .f32⟩
  | .hbm, ⟨64, _⟩ => ⟨S1x1, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x512, .f32⟩
  | .hbm, ⟨77, _⟩ => ⟨S1x512, .f32⟩
  | .hbm, ⟨78, _⟩ => ⟨S16384x512, .f32⟩
  | .hbm, ⟨79, _⟩ => ⟨S16384x512, .f32⟩
  | .hbm, ⟨80, _⟩ => ⟨S16384x16, .f32⟩
  | .hbm, ⟨81, _⟩ => ⟨S1x16, .f32⟩
  | .hbm, ⟨82, _⟩ => ⟨S16384x16, .f32⟩
  | .hbm, ⟨83, _⟩ => ⟨S16384x16, .f32⟩
  | .hbm, ⟨84, _⟩ => ⟨S_, .f32⟩
  | .hbm, ⟨85, _⟩ => ⟨S16384x16, .f32⟩
  | .hbm, ⟨86, _⟩ => ⟨S16384x16, .f32⟩
  | .hbm, ⟨87, _⟩ => ⟨S16384x1, .f32⟩
  | .hbm, ⟨88, _⟩ => ⟨S1x1, .f32⟩
  | .hbm, ⟨89, _⟩ => ⟨S16384x1, .f32⟩
  | .hbm, ⟨90, _⟩ => ⟨S16384x1, .f32⟩
  | .hbm, ⟨91, _⟩ => ⟨S16384x1, .f32⟩
  | .hbm, ⟨92, _⟩ => ⟨S16384x1, .f32⟩
  | .hbm, ⟨93, _⟩ => ⟨S16384x512, .f32⟩
  | .hbm, ⟨94, _⟩ => ⟨S1x512, .f32⟩
  | .hbm, ⟨95, _⟩ => ⟨S16384x512, .f32⟩
  | .hbm, ⟨96, _⟩ => ⟨S16384x512, .f32⟩
  | .hbm, ⟨97, _⟩ => ⟨S16384x16, .f32⟩
  | .hbm, ⟨98, _⟩ => ⟨S1x16, .f32⟩
  | .hbm, ⟨99, _⟩ => ⟨S16384x16, .f32⟩
  | .hbm, ⟨100, _⟩ => ⟨S16384x16, .f32⟩
  | .hbm, ⟨101, _⟩ => ⟨S_, .f32⟩
  | .hbm, ⟨102, _⟩ => ⟨S16384x16, .f32⟩
  | .hbm, ⟨103, _⟩ => ⟨S16384x16, .f32⟩
  | .hbm, ⟨104, _⟩ => ⟨S16384x1, .f32⟩
  | .hbm, ⟨105, _⟩ => ⟨S1x1, .f32⟩
  | .hbm, ⟨106, _⟩ => ⟨S16384x1, .f32⟩
  | .hbm, ⟨107, _⟩ => ⟨S16384x1, .f32⟩
  | .hbm, ⟨108, _⟩ => ⟨S16384x1, .f32⟩
  | .hbm, ⟨109, _⟩ => ⟨S16384x1, .f32⟩
  | .hbm, ⟨110, _⟩ => ⟨S16384x1, .f32⟩
  | .hbm, ⟨111, _⟩ => ⟨S_, .f32⟩
  | .hbm, ⟨112, _⟩ => ⟨S16384x1, .f32⟩
  | .hbm, ⟨113, _⟩ => ⟨S16384x1, .f32⟩
  | .hbm, ⟨114, _⟩ => ⟨S_, .f32⟩
  | .hbm, ⟨115, _⟩ => ⟨S16384x1, .f32⟩
  | .hbm, ⟨116, _⟩ => ⟨S16384x1, .f32⟩
  | .hbm, ⟨117, _⟩ => ⟨S16384x512, .f32⟩
  | .hbm, ⟨118, _⟩ => ⟨S16384x512, .f32⟩
  | .hbm, ⟨119, _⟩ => ⟨S16384x1, .f32⟩
  | .hbm, ⟨120, _⟩ => ⟨S16384x512, .f32⟩
  | .hbm, ⟨121, _⟩ => ⟨S16384x512, .f32⟩
  | .hbm, ⟨122, _⟩ => ⟨S16384x512, .f32⟩
  | .hbm, ⟨123, _⟩ => ⟨S16384x512, .f32⟩
  | .hbm, ⟨124, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_call0_cst : Ref sig .tc := ⟨.hbm, 36, rfl⟩
abbrev main_call0_v0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_v17 : Ref sig .tc := ⟨.hbm, 47, rfl⟩
abbrev main_v18 : Ref sig .tc := ⟨.hbm, 48, rfl⟩
abbrev main_cst_0 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_call1_cst : Ref sig .tc := ⟨.hbm, 60, rfl⟩
abbrev main_call1_v0 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_1 : Ref sig .tc := ⟨.hbm, 70, rfl⟩
abbrev main_v37 : Ref sig .tc := ⟨.hbm, 71, rfl⟩
abbrev main_v38 : Ref sig .tc := ⟨.hbm, 72, rfl⟩
abbrev main_cst_2 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call2_cst : Ref sig .tc := ⟨.hbm, 84, rfl⟩
abbrev main_call2_v0 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_call3_cst : Ref sig .tc := ⟨.hbm, 101, rfl⟩
abbrev main_call3_v0 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_cst_3 : Ref sig .tc := ⟨.hbm, 111, rfl⟩
abbrev main_v72 : Ref sig .tc := ⟨.hbm, 112, rfl⟩
abbrev main_v73 : Ref sig .tc := ⟨.hbm, 113, rfl⟩
abbrev main_cst_4 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  bcast_S_S16384x16 : S_.BroadcastsInDim S16384x16 (![] : Fin 0 → Fin S16384x16.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  bcast_S16384x1_S16384x512_0_1 : S16384x1.BroadcastsInDim S16384x512 (![0, 1] : Fin 2 → Fin S16384x512.rank)
  dot_S16384x1024_S1024x512_S16384x512_1_0_0_1_n_n_wf : DotDims.WF S16384x1024 S1024x512 S16384x512 [1] [0] [0] [1] [] []
  dot_S16384x512_S512x16_S16384x16_1_0_0_1_n_n_wf : DotDims.WF S16384x512 S512x16 S16384x16 [1] [0] [0] [1] [] []
  dot_S16384x16_S16x1_S16384x1_1_0_0_1_n_n_wf : DotDims.WF S16384x16 S16x1 S16384x1 [1] [0] [0] [1] [] []

variable [Facts₀]

def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x16_S16384x16_1_0_0_1_n_n : DotDims S16384x512 S512x16 S16384x16 where
  lhsContracting := [1]
  rhsContracting := [0]
  lhsNonContracting := [0]
  rhsNonContracting := [1]
  lhsBatch := []
  rhsBatch := []
  wf := dot_S16384x512_S512x16_S16384x16_1_0_0_1_n_n_wf
def dot_S16384x16_S16x1_S16384x1_1_0_0_1_n_n : DotDims S16384x16 S16x1 S16384x1 where
  lhsContracting := [1]
  rhsContracting := [0]
  lhsNonContracting := [0]
  rhsNonContracting := [1]
  lhsBatch := []
  rhsBatch := []
  wf := dot_S16384x16_S16x1_S16384x1_1_0_0_1_n_n_wf

class Facts : Prop extends Facts₀ where

variable [Facts]
-- ==== Proof.WinBlocks.lean ====
import proofs.«105010_j65481071407962_1_alg».proof.Proof.KernelIdealValue
import Idealize.ShloMosaic.Lib.Pipeline.Value
import Idealize.ShloMosaic.Lib.ValueIdx

noncomputable section

namespace Cert.KernelIdeal.WinBlocks

open Cert.KernelIdeal Cert.KernelIdeal.Gen Cert.KernelIdeal.GenP
open Idealize.ShloMosaic Idealize.ShloMosaic.TcCoe Idealize.SL.Sem Idealize.ShloMosaic.ValueIdx

variable (m : (ℓ : Loc nD τ sig) → Buf (Elt Ideal) ℓ)

/-- Window 3's index map is constantly zero (decided over the grid). -/
theorem idx3 : ∀ t : Fin cfg0.N, win0_3.index t (0 : Fin 2) = 0 ∧ win0_3.index t (1 : Fin 2) = 0 :=
  (by decide +kernel : ∀ t : Fin grid0.N, _)

/-- Window 3's block at any point is the whole of argument 3. -/
theorem wblk3 (c : Dev nD) (t : Fin cfg0.N) : (iblk m c 3 t : Vec Ideal S1024x512 .f32) = V m c main_arg3 := by
  obtain ⟨e0, e1⟩ := idx3 t
  funext y
  show V m c main_arg3 (((cfg0.win 3).blk t).view.emb y) = V m c main_arg3 y
  refine congrArg _ (funext fun a => Fin.ext ?_)
  match a with
  | ⟨0, _⟩ => show win0_3.index t (0 : Fin 2) * 1024 + 1 * (y 0).val = (y 0).val; omega
  | ⟨1, _⟩ => show win0_3.index t (1 : Fin 2) * 512 + 1 * (y 1).val = (y 1).val; omega

/-- Window 4's index map is constantly zero (decided over the grid). -/
theorem idx4 : ∀ t : Fin cfg0.N, win0_4.index t (0 : Fin 1) = 0 :=
  (by decide +kernel : ∀ t : Fin grid0.N, _)

/-- Window 4's block at any point is the whole of argument 4. -/
theorem wblk4 (c : Dev nD) (t : Fin cfg0.N) : (iblk m c 4 t : Vec Ideal S512 .f32) = V m c main_arg4 := by
  have e0 := idx4 t
  funext y
  show V m c main_arg4 (((cfg0.win 4).blk t).view.emb y) = V m c main_arg4 y
  refine congrArg _ (funext fun a => Fin.ext ?_)
  match a with
  | ⟨0, _⟩ => show win0_4.index t (0 : Fin 1) * 512 + 1 * (y 0).val = (y 0).val; omega

/-- Window 5's index map is constantly zero (decided over the grid). -/
theorem idx5 : ∀ t : Fin cfg0.N, win0_5.index t (0 : Fin 2) = 0 ∧ win0_5.index t (1 : Fin 2) = 0 :=
  (by decide +kernel : ∀ t : Fin grid0.N, _)

/-- Window 5's block at any point is the whole of argument 5. -/
theorem wblk5 (c : Dev nD) (t : Fin cfg0.N) : (iblk m c 5 t : Vec Ideal S512x16 .f32) = V m c main_arg5 := by
  obtain ⟨e0, e1⟩ := idx5 t
  funext y
  show V m c main_arg5 (((cfg0.win 5).blk t).view.emb y) = V m c main_arg5 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 16 + 1 * (y 1).val = (y 1).val; omega

/-- Window 6's index map is constantly zero (decided over the grid). -/
theorem idx6 : ∀ t : Fin cfg0.N, win0_6.index t (0 : Fin 1) = 0 :=
  (by decide +kernel : ∀ t : Fin grid0.N, _)

/-- Window 6's block at any point is the whole of argument 6. -/
theorem wblk6 (c : Dev nD) (t : Fin cfg0.N) : (iblk m c 6 t : Vec Ideal S16 .f32) = V m c main_arg6 := by
  have e0 := idx6 t
  funext y
  show V m c main_arg6 (((cfg0.win 6).blk t).view.emb y) = V m c main_arg6 y
  refine congrArg _ (funext fun a => Fin.ext ?_)
  match a with
  | ⟨0, _⟩ => show win0_6.index t (0 : Fin 1) * 16 + 1 * (y 0).val = (y 0).val; omega

/-- Window 7's index map is constantly zero (decided over the grid). -/
theorem idx7 : ∀ t : Fin cfg0.N, win0_7.index t (0 : Fin 2) = 0 ∧ win0_7.index t (1 : Fin 2) = 0 :=
  (by decide +kernel : ∀ t : Fin grid0.N, _)

/-- Window 7's block at any point is the whole of argument 7. -/
theorem wblk7 (c : Dev nD) (t : Fin cfg0.N) : (iblk m c 7 t : Vec Ideal S16x1 .f32) = V m c main_arg7 := by
  obtain ⟨e0, e1⟩ := idx7 t
  funext y
  show V m c main_arg7 (((cfg0.win 7).blk t).view.emb y) = V m c main_arg7 y
  refine congrArg _ (funext fun a => Fin.ext ?_)
  match a with
  | ⟨0, _⟩ => show win0_7.index t (0 : Fin 2) * 16 + 1 * (y 0).val = (y 0).val; omega
  | ⟨1, _⟩ => show win0_7.index t (1 : Fin 2) * 1 + 1 * (y 1).val = (y 1).val; omega

/-- Window 8's index map is constantly zero (decided over the grid). -/
theorem idx8 : ∀ t : Fin cfg0.N, win0_8.index t (0 : Fin 1) = 0 :=
  (by decide +kernel : ∀ t : Fin grid0.N, _)

/-- Window 8's block at any point is the whole of argument 8. -/
theorem wblk8 (c : Dev nD) (t : Fin cfg0.N) : (iblk m c 8 t : Vec Ideal S1 .f32) = V m c main_arg8 := by
  have e0 := idx8 t
  funext y
  show V m c main_arg8 (((cfg0.win 8).blk t).view.emb y) = V m c main_arg8 y
  refine congrArg _ (funext fun a => Fin.ext ?_)
  match a with
  | ⟨0, _⟩ => show win0_8.index t (0 : Fin 1) * 1 + 1 * (y 0).val = (y 0).val; omega

/-- Window 9's index map is constantly zero (decided over the grid). -/
theorem idx9 : ∀ t : Fin cfg0.N, win0_9.index t (0 : Fin 2) = 0 ∧ win0_9.index t (1 : Fin 2) = 0 :=
  (by decide +kernel : ∀ t : Fin grid0.N, _)

/-- Window 9's block at any point is the whole of argument 9. -/
theorem wblk9 (c : Dev nD) (t : Fin cfg0.N) : (iblk m c 9 t : Vec Ideal S1024x512 .f32) = V m c main_arg9 := by
  obtain ⟨e0, e1⟩ := idx9 t
  funext y
  show V m c main_arg9 (((cfg0.win 9).blk t).view.emb y) = V m c main_arg9 y
  refine congrArg _ (funext fun a => Fin.ext ?_)
  match a with
  | ⟨0, _⟩ => show win0_9.index t (0 : Fin 2) * 1024 + 1 * (y 0).val = (y 0).val; omega
  | ⟨1, _⟩ => show win0_9.index t (1 : Fin 2) * 512 + 1 * (y 1).val = (y 1).val; omega

/-- Window 10's index map is constantly zero (decided over the grid). -/
theorem idx10 : ∀ t : Fin cfg0.N, win0_10.index t (0 : Fin 1) = 0 :=
  (by decide +kernel : ∀ t : Fin grid0.N, _)

/-- Window 10's block at any point is the whole of argument 10. -/
theorem wblk10 (c : Dev nD) (t : Fin cfg0.N) : (iblk m c 10 t : Vec Ideal S512 .f32) = V m c main_arg10 := by
  have e0 := idx10 t
  funext y
  show V m c main_arg10 (((cfg0.win 10).blk t).view.emb y) = V m c main_arg10 y
  refine congrArg _ (funext fun a => Fin.ext ?_)
  match a with
  | ⟨0, _⟩ => show win0_10.index t (0 : Fin 1) * 512 + 1 * (y 0).val = (y 0).val; omega

/-- Window 11's index map is constantly zero (decided over the grid). -/
theorem idx11 : ∀ t : Fin cfg0.N, win0_11.index t (0 : Fin 2) = 0 ∧ win0_11.index t (1 : Fin 2) = 0 :=
  (by decide +kernel : ∀ t : Fin grid0.N, _)

/-- Window 11's block at any point is the whole of argument 11. -/
theorem wblk11 (c : Dev nD) (t : Fin cfg0.N) : (iblk m c 11 t : Vec Ideal S512x16 .f32) = V m c main_arg11 := by
  obtain ⟨e0, e1⟩ := idx11 t
  funext y
  show V m c main_arg11 (((cfg0.win 11).blk t).view.emb y) = V m c main_arg11 y
  refine congrArg _ (funext fun a => Fin.ext ?_)
  match a with
  | ⟨0, _⟩ => show win0_11.index t (0 : Fin 2) * 512 + 1 * (y 0).val = (y 0).val; omega
  | ⟨1, _⟩ => show win0_11.index t (1 : Fin 2) * 16 + 1 * (y 1).val = (y 1).val; omega

/-- Window 12's index map is constantly zero (decided over the grid). -/
theorem idx12 : ∀ t : Fin cfg0.N, win0_12.index t (0 : Fin 1) = 0 :=
  (by decide +kernel : ∀ t : Fin grid0.N, _)

/-- Window 12's block at any point is the whole of argument 12. -/
theorem wblk12 (c : Dev nD) (t : Fin cfg0.N) : (iblk m c 12 t : Vec Ideal S16 .f32) = V m c main_arg12 := by
  have e0 := idx12 t
  funext y
  show V m c main_arg12 (((cfg0.win 12).blk t).view.emb y) = V m c main_arg12 y
  refine congrArg _ (funext fun a => Fin.ext ?_)
  match a with
  | ⟨0, _⟩ => show win0_12.index t (0 : Fin 1) * 16 + 1 * (y 0).val = (y 0).val; omega

/-- Window 13's index map is constantly zero (decided over the grid). -/
theorem idx13 : ∀ t : Fin cfg0.N, win0_13.index t (0 : Fin 2) = 0 ∧ win0_13.index t (1 : Fin 2) = 0 :=
  (by decide +kernel : ∀ t : Fin grid0.N, _)

/-- Window 13's block at any point is the whole of argument 13. -/
theorem wblk13 (c : Dev nD) (t : Fin cfg0.N) : (iblk m c 13 t : Vec Ideal S16x1 .f32) = V m c main_arg13 := by
  obtain ⟨e0, e1⟩ := idx13 t
  funext y
  show V m c main_arg13 (((cfg0.win 13).blk t).view.emb y) = V m c main_arg13 y
  refine congrArg _ (funext fun a => Fin.ext ?_)
  match a with
  | ⟨0, _⟩ => show win0_13.index t (0 : Fin 2) * 16 + 1 * (y 0).val = (y 0).val; omega
  | ⟨1, _⟩ => show win0_13.index t (1 : Fin 2) * 1 + 1 * (y 1).val = (y 1).val; omega

/-- Window 14's index map is constantly zero (decided over the grid). -/
theorem idx14 : ∀ t : Fin cfg0.N, win0_14.index t (0 : Fin 1) = 0 :=
  (by decide +kernel : ∀ t : Fin grid0.N, _)

/-- Window 14's block at any point is the whole of argument 14. -/
theorem wblk14 (c : Dev nD) (t : Fin cfg0.N) : (iblk m c 14 t : Vec Ideal S1 .f32) = V m c main_arg14 := by
  have e0 := idx14 t
  funext y
  show V m c main_arg14 (((cfg0.win 14).blk t).view.emb y) = V m c main_arg14 y
  refine congrArg _ (funext fun a => Fin.ext ?_)
  match a with
  | ⟨0, _⟩ => show win0_14.index t (0 : Fin 1) * 1 + 1 * (y 0).val = (y 0).val; omega

/-- Window 15's index map is constantly zero (decided over the grid). -/
theorem idx15 : ∀ t : Fin cfg0.N, win0_15.index t (0 : Fin 2) = 0 ∧ win0_15.index t (1 : Fin 2) = 0 :=
  (by decide +kernel : ∀ t : Fin grid0.N, _)

/-- Window 15's block at any point is the whole of argument 15. -/
theorem wblk15 (c : Dev nD) (t : Fin cfg0.N) : (iblk m c 15 t : Vec Ideal S1024x512 .f32) = V m c main_arg15 := by
  obtain ⟨e0, e1⟩ := idx15 t
  funext y
  show V m c main_arg15 (((cfg0.win 15).blk t).view.emb y) = V m c main_arg15 y
  refine congrArg _ (funext fun a => Fin.ext ?_)
  match a with
  | ⟨0, _⟩ => show win0_15.index t (0 : Fin 2) * 1024 + 1 * (y 0).val = (y 0).val; omega
  | ⟨1, _⟩ => show win0_15.index t (1 : Fin 2) * 512 + 1 * (y 1).val = (y 1).val; omega

/-- Window 16's index map is constantly zero (decided over the grid). -/
theorem idx16 : ∀ t : Fin cfg0.N, win0_16.index t (0 : Fin 1) = 0 :=
  (by decide +kernel : ∀ t : Fin grid0.N, _)

/-- Window 16's block at any point is the whole of argument 16. -/
theorem wblk16 (c : Dev nD) (t : Fin cfg0.N) : (iblk m c 16 t : Vec Ideal S512 .f32) = V m c main_arg16 := by
  have e0 := idx16 t
  funext y
  show V m c main_arg16 (((cfg0.win 16).blk t).view.emb y) = V m c main_arg16 y
  refine congrArg _ (funext fun a => Fin.ext ?_)
  match a with
  | ⟨0, _⟩ => show win0_16.index t (0 : Fin 1) * 512 + 1 * (y 0).val = (y 0).val; omega

/-- Window 17's index map is constantly zero (decided over the grid). -/
theorem idx17 : ∀ t : Fin cfg0.N, win0_17.index t (0 : Fin 2) = 0 ∧ win0_17.index t (1 : Fin 2) = 0 :=
  (by decide +kernel : ∀ t : Fin grid0.N, _)

/-- Window 17's block at any point is the whole of argument 17. -/
theorem wblk17 (c : Dev nD) (t : Fin cfg0.N) : (iblk m c 17 t : Vec Ideal S512x16 .f32) = V m c main_arg17 := by
  obtain ⟨e0, e1⟩ := idx17 t
  funext y
  show V m c main_arg17 (((cfg0.win 17).blk t).view.emb y) = V m c main_arg17 y
  refine congrArg _ (funext fun a => Fin.ext ?_)
  match a with
  | ⟨0, _⟩ => show win0_17.index t (0 : Fin 2) * 512 + 1 * (y 0).val = (y 0).val; omega
  | ⟨1, _⟩ => show win0_17.index t (1 : Fin 2) * 16 + 1 * (y 1).val = (y 1).val; omega

/-- Window 18's index map is constantly zero (decided over the grid). -/
theorem idx18 : ∀ t : Fin cfg0.N, win0_18.index t (0 : Fin 1) = 0 :=
  (by decide +kernel : ∀ t : Fin grid0.N, _)

/-- Window 18's block at any point is the whole of argument 18. -/
theorem wblk18 (c : Dev nD) (t : Fin cfg0.N) : (iblk m c 18 t : Vec Ideal S16 .f32) = V m c main_arg18 := by
  have e0 := idx18 t
  funext y
  show V m c main_arg18 (((cfg0.win 18).blk t).view.emb y) = V m c main_arg18 y
  refine congrArg _ (funext fun a => Fin.ext ?_)
  match a with
  | ⟨0, _⟩ => show win0_18.index t (0 : Fin 1) * 16 + 1 * (y 0).val = (y 0).val; omega

/-- Window 19's index map is constantly zero (decided over the grid). -/
theorem idx19 : ∀ t : Fin cfg0.N, win0_19.index t (0 : Fin 2) = 0 ∧ win0_19.index t (1 : Fin 2) = 0 :=
  (by decide +kernel : ∀ t : Fin grid0.N, _)

/-- Window 19's block at any point is the whole of argument 19. -/
theorem wblk19 (c : Dev nD) (t : Fin cfg0.N) : (iblk m c 19 t : Vec Ideal S16x1 .f32) = V m c main_arg19 := by
  obtain ⟨e0, e1⟩ := idx19 t
  funext y
  show V m c main_arg19 (((cfg0.win 19).blk t).view.emb y) = V m c main_arg19 y
  refine congrArg _ (funext fun a => Fin.ext ?_)
  match a with
  | ⟨0, _⟩ => show win0_19.index t (0 : Fin 2) * 16 + 1 * (y 0).val = (y 0).val; omega
  | ⟨1, _⟩ => show win0_19.index t (1 : Fin 2) * 1 + 1 * (y 1).val = (y 1).val; omega

/-- Window 20's index map is constantly zero (decided over the grid). -/
theorem idx20 : ∀ t : Fin cfg0.N, win0_20.index t (0 : Fin 1) = 0 :=
  (by decide +kernel : ∀ t : Fin grid0.N, _)

/-- Window 20's block at any point is the whole of argument 20. -/
theorem wblk20 (c : Dev nD) (t : Fin cfg0.N) : (iblk m c 20 t : Vec Ideal S1 .f32) = V m c main_arg20 := by
  have e0 := idx20 t
  funext y
  show V m c main_arg20 (((cfg0.win 20).blk t).view.emb y) = V m c main_arg20 y
  refine congrArg _ (funext fun a => Fin.ext ?_)
  match a with
  | ⟨0, _⟩ => show win0_20.index t (0 : Fin 1) * 1 + 1 * (y 0).val = (y 0).val; omega

/-- Window 21's index map is constantly zero (decided over the grid). -/
theorem idx21 : ∀ t : Fin cfg0.N, win0_21.index t (0 : Fin 2) = 0 ∧ win0_21.index t (1 : Fin 2) = 0 :=
  (by decide +kernel : ∀ t : Fin grid0.N, _)

/-- Window 21's block at any point is the whole of argument 21. -/
theorem wblk21 (c : Dev nD) (t : Fin cfg0.N) : (iblk m c 21 t : Vec Ideal S1024x512 .f32) = V m c main_arg21 := by
  obtain ⟨e0, e1⟩ := idx21 t
  funext y
  show V m c main_arg21 (((cfg0.win 21).blk t).view.emb y) = V m c main_arg21 y
  refine congrArg _ (funext fun a => Fin.ext ?_)
  match a with
  | ⟨0, _⟩ => show win0_21.index t (0 : Fin 2) * 1024 + 1 * (y 0).val = (y 0).val; omega
  | ⟨1, _⟩ => show win0_21.index t (1 : Fin 2) * 512 + 1 * (y 1).val = (y 1).val; omega

/-- Window 22's index map is constantly zero (decided over the grid). -/
theorem idx22 : ∀ t : Fin cfg0.N, win0_22.index t (0 : Fin 1) = 0 :=
  (by decide +kernel : ∀ t : Fin grid0.N, _)

/-- Window 22's block at any point is the whole of argument 22. -/
theorem wblk22 (c : Dev nD) (t : Fin cfg0.N) : (iblk m c 22 t : Vec Ideal S512 .f32) = V m c main_arg22 := by
  have e0 := idx22 t
  funext y
  show V m c main_arg22 (((cfg0.win 22).blk t).view.emb y) = V m c main_arg22 y
  refine congrArg _ (funext fun a => Fin.ext ?_)
  match a with
  | ⟨0, _⟩ => show win0_22.index t (0 : Fin 1) * 512 + 1 * (y 0).val = (y 0).val; omega

/-- Window 23's index map is constantly zero (decided over the grid). -/
theorem idx23 : ∀ t : Fin cfg0.N, win0_23.index t (0 : Fin 2) = 0 ∧ win0_23.index t (1 : Fin 2) = 0 :=
  (by decide +kernel : ∀ t : Fin grid0.N, _)

/-- Window 23's block at any point is the whole of argument 23. -/
theorem wblk23 (c : Dev nD) (t : Fin cfg0.N) : (iblk m c 23 t : Vec Ideal S512x16 .f32) = V m c main_arg23 := by
  obtain ⟨e0, e1⟩ := idx23 t
  funext y
  show V m c main_arg23 (((cfg0.win 23).blk t).view.emb y) = V m c main_arg23 y
  refine congrArg _ (funext fun a => Fin.ext ?_)
  match a with
  | ⟨0, _⟩ => show win0_23.index t (0 : Fin 2) * 512 + 1 * (y 0).val = (y 0).val; omega
  | ⟨1, _⟩ => show win0_23.index t (1 : Fin 2) * 16 + 1 * (y 1).val = (y 1).val; omega

/-- Window 24's index map is constantly zero (decided over the grid). -/
theorem idx24 : ∀ t : Fin cfg0.N, win0_24.index t (0 : Fin 1) = 0 :=
  (by decide +kernel : ∀ t : Fin grid0.N, _)

/-- Window 24's block at any point is the whole of argument 24. -/
theorem wblk24 (c : Dev nD) (t : Fin cfg0.N) : (iblk m c 24 t : Vec Ideal S16 .f32) = V m c main_arg24 := by
  have e0 := idx24 t
  funext y
  show V m c main_arg24 (((cfg0.win 24).blk t).view.emb y) = V m c main_arg24 y
  refine congrArg _ (funext fun a => Fin.ext ?_)
  match a with
  | ⟨0, _⟩ => show win0_24.index t (0 : Fin 1) * 16 + 1 * (y 0).val = (y 0).val; omega

/-- Window 25's index map is constantly zero (decided over the grid). -/
theorem idx25 : ∀ t : Fin cfg0.N, win0_25.index t (0 : Fin 2) = 0 ∧ win0_25.index t (1 : Fin 2) = 0 :=
  (by decide +kernel : ∀ t : Fin grid0.N, _)

/-- Window 25's block at any point is the whole of argument 25. -/
theorem wblk25 (c : Dev nD) (t : Fin cfg0.N) : (iblk m c 25 t : Vec Ideal S16x1 .f32) = V m c main_arg25 := by
  obtain ⟨e0, e1⟩ := idx25 t
  funext y
  show V m c main_arg25 (((cfg0.win 25).blk t).view.emb y) = V m c main_arg25 y
  refine congrArg _ (funext fun a => Fin.ext ?_)
  match a with
  | ⟨0, _⟩ => show win0_25.index t (0 : Fin 2) * 16 + 1 * (y 0).val = (y 0).val; omega
  | ⟨1, _⟩ => show win0_25.index t (1 : Fin 2) * 1 + 1 * (y 1).val = (y 1).val; omega

/-- Window 26's index map is constantly zero (decided over the grid). -/
theorem idx26 : ∀ t : Fin cfg0.N, win0_26.index t (0 : Fin 1) = 0 :=
  (by decide +kernel : ∀ t : Fin grid0.N, _)

/-- Window 26's block at any point is the whole of argument 26. -/
theorem wblk26 (c : Dev nD) (t : Fin cfg0.N) : (iblk m c 26 t : Vec Ideal S1 .f32) = V m c main_arg26 := by
  have e0 := idx26 t
  funext y
  show V m c main_arg26 (((cfg0.win 26).blk t).view.emb y) = V m c main_arg26 y
  refine congrArg _ (funext fun a => Fin.ext ?_)
  match a with
  | ⟨0, _⟩ => show win0_26.index t (0 : Fin 1) * 1 + 1 * (y 0).val = (y 0).val; omega

end Cert.KernelIdeal.WinBlocks

end
-- ==== Proof.Cell.lean ====
/-
  The mathematics of one LSTM cell step with gated scalars, row by row, on the extended reals.

  For one batch row with input row `xr` and hidden row `hr` (512 entries each), a gate with weights
  `W` (1024 × 512, its first 512 rows `Wt` meeting `xr`, its last 512 rows `Wb` meeting `hr`), bias `b`,
  and a small network `W1` (512 × 16), `b1`, `W2` (16 × 1), `b2` computes ONE scalar

      gateCore = tanh ( Σ_q  max ( Σ_j z_j · W1[j,q] + b1[q] , 0 ) · W2[q,0] + b2[0] ),
      z_j      = ( Σ_k xr[k] · Wt[k,j] + Σ_k hr[k] · Wb[k,j] ) + b[j].

  The cell then has, at column j of that row, with cell entry `cv`,
      c' = σ(gate_f) · cv + σ(gate_i) · tanh(gate_u),      h' = σ(gate_o) · tanh(c'),
  σ the logistic function. The only law used between the two programs is that a sum over 1024 terms is
  the sum over its first 512 plus the sum over its last 512 (`sum_halves`), which holds in any additive
  commutative monoid, so no finiteness of the inputs is needed anywhere.
-/
import Idealize.ShloMosaic.PureOps.Ideal.Laws
import Idealize.ShloMosaic.Lib.ValueIdx
import Idealize.ShloMosaic.Lib.IdealHost

noncomputable section

namespace Cert.Cell

open Idealize.ShloMosaic Idealize.ShloMosaic.ValueIdx
open scoped BigOperators

/-- A matrix of extended reals over a literal two-axis shape. -/
abbrev Mat (a b : Nat) : Type := (⟨2, ![a, b]⟩ : Shape).Idx → EReal
/-- A vector of extended reals over a literal one-axis shape. -/
abbrev Vc (a : Nat) : Type := (⟨1, ![a]⟩ : Shape).Idx → EReal

/-- Row `k` of the first half of a 1024-row matrix. -/
abbrev top (k : Fin 512) : Fin 1024 := ⟨k.val, by have := k.isLt; omega⟩
/-- Row `k` of the second half of a 1024-row matrix. -/
abbrev bot (k : Fin 512) : Fin 1024 := ⟨512 + k.val, by have := k.isLt; omega⟩

/-- The first 512 rows of a 1024 × 512 matrix. -/
def topHalf (W : Mat 1024 512) : Mat 512 512 := fun i => W (ix2 (top (i 0 : Fin 512)) (i 1 : Fin 512))
/-- The last 512 rows of a 1024 × 512 matrix. -/
def botHalf (W : Mat 1024 512) : Mat 512 512 := fun i => W (ix2 (bot (i 0 : Fin 512)) (i 1 : Fin 512))

/-- The affine layer's entry `j` for one row: the input row against `Wt`, the hidden row against `Wb`, plus bias. -/
def lin (xr hr : Fin 512 → EReal) (Wt Wb : Mat 512 512) (b : Vc 512) (j : Fin 512) : EReal :=
  (∑ k : Fin 512, xr k * Wt (ix2 k j) + ∑ k : Fin 512, hr k * Wb (ix2 k j)) + b (ix1 j)

/-- The small network's hidden unit `q` for one row: a rectified affine function of the 512 entries of `lin`. -/
def hid (xr hr : Fin 512 → EReal) (Wt Wb : Mat 512 512) (b : Vc 512) (W1 : Mat 512 16) (b1 : Vc 16) (q : Fin 16) : EReal :=
  max ((∑ j : Fin 512, lin xr hr Wt Wb b j * W1 (ix2 j q)) + b1 (ix1 q)) (Ideal.ofBits .f32 0x00000000#32)

/-- One gate's scalar for one row. -/
def gateCore (xr hr : Fin 512 → EReal) (Wt Wb : Mat 512 512) (b : Vc 512) (W1 : Mat 512 16) (b1 : Vc 16)
    (W2 : Mat 16 1) (b2 : Vc 1) : EReal :=
  Ideal.tanh ((∑ q : Fin 16, hid xr hr Wt Wb b W1 b1 q * W2 (ix2 q (0 : Fin 1))) + b2 (ix1 (0 : Fin 1)))

/-- One gate's weights. -/
structure GateW where
  W : Mat 1024 512
  b : Vc 512
  W1 : Mat 512 16
  b1 : Vc 16
  W2 : Mat 16 1
  b2 : Vc 1

/-- One gate's scalar for one row, from the gate's weights as the arguments give them. -/
def gate (g : GateW) (xr hr : Fin 512 → EReal) : EReal :=
  gateCore xr hr (topHalf g.W) (botHalf g.W) g.b g.W1 g.b1 g.W2 g.b2

/-- The new cell entry from the forget, input and update scalars of its row and the old cell entry. -/
def cellOf (f i u cv : EReal) : EReal := Ideal.logistic f * cv + Ideal.logistic i * Ideal.tanh u
/-- The new hidden entry from the output scalar of its row and the new cell entry. -/
def hiddenOf (o c' : EReal) : EReal := Ideal.logistic o * Ideal.tanh c'

/-- Row `r` of a 16384 × 512 array. -/
def row (x : Mat 16384 512) (r : Fin 16384) : Fin 512 → EReal := fun k => x (ix2 r k)

/-- The whole new cell array. -/
def cArr (gf gi gu : GateW) (x h c : Mat 16384 512) : Mat 16384 512 := fun i =>
  cellOf (gate gf (row x (i 0 : Fin 16384)) (row h (i 0 : Fin 16384))) (gate gi (row x (i 0 : Fin 16384)) (row h (i 0 : Fin 16384)))
    (gate gu (row x (i 0 : Fin 16384)) (row h (i 0 : Fin 16384))) (c i)

/-- The whole new hidden array. -/
def hArr (gf gi gu go : GateW) (x h c : Mat 16384 512) : Mat 16384 512 := fun i =>
  hiddenOf (gate go (row x (i 0 : Fin 16384)) (row h (i 0 : Fin 16384))) (cArr gf gi gu x h c i)

/-- A sum over 1024 terms is the sum over the first 512 plus the sum over the last 512. -/
theorem sum_halves (f : Fin 1024 → EReal) :
    ∑ k : Fin 1024, f k = ∑ k : Fin 512, f (top k) + ∑ k : Fin 512, f (bot k) :=
  Fin.sum_univ_add (M := EReal) (a := 512) (b := 512) f

/-- The logistic function spelt with the float pattern of one: `1 / (1 + e^(-x))`. -/
theorem logistic_spelt (x : EReal) :
    Ideal.div (Ideal.ofBits .f32 0x3F800000#32) (Ideal.ofBits .f32 0x3F800000#32 + Ideal.exp (-x)) = Ideal.logistic x := by
  rw [Ideal.ofBits_one_f32]; rfl

end Cert.Cell

end
-- ==== Proof.KerCell.lean ====
/-
  The kernel body's pure payloads read at an index of the 256-row block, at the ideal values (floats are extended
  reals, every format change the identity).

  Each gate's column is spelt by the body as the same chain. The AFFINE block is the input block times the top
  weights plus the hidden block times the bottom weights, both products accumulated into a zero block; at (p, j)
  that is  Σ_k x[p,k]·Wt[k,j] + Σ_k h[p,k]·Wb[k,j].  The FIRST STAGE (`hidPre`) adds the bias b along every row and
  multiplies by the 512 × 16 weights: at (p, q),  Σ_j (z[p,j] + b[j])·W1[j,q].  The SECOND STAGE (`core`) adds the
  bias b1 along every row, rectifies, multiplies by the 16 × 1 weights, adds b2 and takes the hyperbolic tangent:
  at (p, 0),  tanh( Σ_q max(h[p,q] + b1[q], 0)·W2[q,0] + b2[0] ).  Composed, row p of the column is the row's gate
  scalar `gateCore` of the specification (`gate_apply`). The forget, input and output gates take the logistic of
  that column and the update gate its hyperbolic tangent; the stored cell block broadcasts the columns along the
  512 columns, f·c + i·g, and the stored hidden block is the output column times the hyperbolic tangent of it.

  What is not pointwise is read by one lemma each: a product accumulated into zero is the plain sum over the
  contracted position (three shapes: 256×512·512×512, 256×512·512×16, 256×16·16×1), a vector cast to one row and
  broadcast down the rows reads its entry at the column, and a column broadcast along the columns reads its entry
  at the row.
-/
import proofs.«105010_j65481071407962_1_alg».proof.Proof.Gen.KernelIdeal.Skeleton
import proofs.«105010_j65481071407962_1_alg».proof.Proof.Cell
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace Cert.KernelIdeal.KerCell

open Cert.KernelIdeal Cert.KernelIdeal.Gen Cert.Cell Idealize.ShloMosaic Idealize.ShloMosaic.ValueIdx
open scoped BigOperators

/-- Row `p` of a 256 × 512 block. -/
def brow (x : Vec Ideal S256x512 .f32) (p : Fin 256) : Fin 512 → EReal := fun k => x (ix2 p k)

/-! The dimension numbers of the 256×512 by 512×512 product: where its operands are read. -/

theorem mmA_lhs_row (i : S256x512.Idx) (q : dot_S256x512_S512x512_S256x512_1_0_0_1_n_n.contr.Idx) :
    (dot_S256x512_S512x512_S256x512_1_0_0_1_n_n.lhsIdx i q 0).val = (i 0).val := by
  unfold DotDims.lhsIdx
  rw [dif_neg (show ¬(0 : Fin S256x512.rank) ∈ dot_S256x512_S512x512_S256x512_1_0_0_1_n_n.lhsBatch by decide),
    dif_pos (show (0 : Fin S256x512.rank) ∈ dot_S256x512_S512x512_S256x512_1_0_0_1_n_n.lhsNonContracting by decide)]
  rfl
theorem mmA_lhs_col (i : S256x512.Idx) (q : dot_S256x512_S512x512_S256x512_1_0_0_1_n_n.contr.Idx) :
    (dot_S256x512_S512x512_S256x512_1_0_0_1_n_n.lhsIdx i q 1).val = (q ⟨0, by decide⟩).val :=
  dot_S256x512_S512x512_S256x512_1_0_0_1_n_n.lhsIdx_val_of_single rfl i q
theorem mmA_rhs_row (i : S256x512.Idx) (q : dot_S256x512_S512x512_S256x512_1_0_0_1_n_n.contr.Idx) :
    (dot_S256x512_S512x512_S256x512_1_0_0_1_n_n.rhsIdx i q 0).val = (q ⟨0, by decide⟩).val :=
  dot_S256x512_S512x512_S256x512_1_0_0_1_n_n.rhsIdx_val_of_single rfl i q
theorem mmA_rhs_col (i : S256x512.Idx) (q : dot_S256x512_S512x512_S256x512_1_0_0_1_n_n.contr.Idx) :
    (dot_S256x512_S512x512_S256x512_1_0_0_1_n_n.rhsIdx i q 1).val = (i 1).val := by
  unfold DotDims.rhsIdx
  rw [dif_neg (show ¬(1 : Fin S512x512.rank) ∈ dot_S256x512_S512x512_S256x512_1_0_0_1_n_n.rhsBatch by decide),
    dif_pos (show (1 : Fin S512x512.rank) ∈ dot_S256x512_S512x512_S256x512_1_0_0_1_n_n.rhsNonContracting by decide)]
  rfl

/-- The 256×512 by 512×512 product into the zero splat, at entry (p, j): the sum over the 512 contracted positions
    of the left operand's row p times the right operand's column j. -/
theorem mmA_apply {φ₁ φ₂ : FTy} (A : FVec Ideal S256x512 φ₁) (B : FVec Ideal S512x512 φ₂) (p : Fin 256) (j : Fin 512) :
    matmul dot_S256x512_S512x512_S256x512_1_0_0_1_n_n none A B (constant (F := Ideal) S256x512 .f32 0x00000000#32) (ix2 p j)
      = ∑ k : Fin 512, A (ix2 p k) * B (ix2 k j) := by
  refine (Ideal.matmul_constant_zero_apply dot_S256x512_S512x512_S256x512_1_0_0_1_n_n none A B (ix2 p j)).trans ?_
  rw [← Equiv.sum_comp (ValueIdx.contrEquiv1 dot_S256x512_S512x512_S256x512_1_0_0_1_n_n 512 rfl rfl).symm]
  refine Finset.sum_congr rfl fun k _ => ?_
  have hk := ValueIdx.contrEquiv1_symm_val dot_S256x512_S512x512_S256x512_1_0_0_1_n_n 512 rfl rfl k
  have el : dot_S256x512_S512x512_S256x512_1_0_0_1_n_n.lhsIdx (ix2 p j) ((ValueIdx.contrEquiv1 dot_S256x512_S512x512_S256x512_1_0_0_1_n_n 512 rfl rfl).symm k) = ix2 p k :=
    funext fun a => Fin.ext (by
      match a with
      | ⟨0, _⟩ => exact mmA_lhs_row _ _
      | ⟨1, _⟩ => exact (mmA_lhs_col _ _).trans hk)
  have er : dot_S256x512_S512x512_S256x512_1_0_0_1_n_n.rhsIdx (ix2 p j) ((ValueIdx.contrEquiv1 dot_S256x512_S512x512_S256x512_1_0_0_1_n_n 512 rfl rfl).symm k) = ix2 k j :=
    funext fun a => Fin.ext (by
      match a with
      | ⟨0, _⟩ => exact (mmA_rhs_row _ _).trans hk
      | ⟨1, _⟩ => exact mmA_rhs_col _ _)
  rw [el, er]

/-! The dimension numbers of the 256×512 by 512×16 product: where its operands are read. -/

theorem mmB_lhs_row (i : S256x16.Idx) (q : dot_S256x512_S512x16_S256x16_1_0_0_1_n_n.contr.Idx) :
    (dot_S256x512_S512x16_S256x16_1_0_0_1_n_n.lhsIdx i q 0).val = (i 0).val := by
  unfold DotDims.lhsIdx
  rw [dif_neg (show ¬(0 : Fin S256x512.rank) ∈ dot_S256x512_S512x16_S256x16_1_0_0_1_n_n.lhsBatch by decide),
    dif_pos (show (0 : Fin S256x512.rank) ∈ dot_S256x512_S512x16_S256x16_1_0_0_1_n_n.lhsNonContracting by decide)]
  rfl
theorem mmB_lhs_col (i : S256x16.Idx) (q : dot_S256x512_S512x16_S256x16_1_0_0_1_n_n.contr.Idx) :
    (dot_S256x512_S512x16_S256x16_1_0_0_1_n_n.lhsIdx i q 1).val = (q ⟨0, by decide⟩).val :=
  dot_S256x512_S512x16_S256x16_1_0_0_1_n_n.lhsIdx_val_of_single rfl i q
theorem mmB_rhs_row (i : S256x16.Idx) (q : dot_S256x512_S512x16_S256x16_1_0_0_1_n_n.contr.Idx) :
    (dot_S256x512_S512x16_S256x16_1_0_0_1_n_n.rhsIdx i q 0).val = (q ⟨0, by decide⟩).val :=
  dot_S256x512_S512x16_S256x16_1_0_0_1_n_n.rhsIdx_val_of_single rfl i q
theorem mmB_rhs_col (i : S256x16.Idx) (q : dot_S256x512_S512x16_S256x16_1_0_0_1_n_n.contr.Idx) :
    (dot_S256x512_S512x16_S256x16_1_0_0_1_n_n.rhsIdx i q 1).val = (i 1).val := by
  unfold DotDims.rhsIdx
  rw [dif_neg (show ¬(1 : Fin S512x16.rank) ∈ dot_S256x512_S512x16_S256x16_1_0_0_1_n_n.rhsBatch by decide),
    dif_pos (show (1 : Fin S512x16.rank) ∈ dot_S256x512_S512x16_S256x16_1_0_0_1_n_n.rhsNonContracting by decide)]
  rfl

/-- The 256×512 by 512×16 product into the zero splat, at entry (p, j): the sum over the 512 contracted positions
    of the left operand's row p times the right operand's column j. -/
theorem mmB_apply {φ₁ φ₂ : FTy} (A : FVec Ideal S256x512 φ₁) (B : FVec Ideal S512x16 φ₂) (p : Fin 256) (j : Fin 16) :
    matmul dot_S256x512_S512x16_S256x16_1_0_0_1_n_n none A B (constant (F := Ideal) S256x16 .f32 0x00000000#32) (ix2 p j)
      = ∑ k : Fin 512, A (ix2 p k) * B (ix2 k j) := by
  refine (Ideal.matmul_constant_zero_apply dot_S256x512_S512x16_S256x16_1_0_0_1_n_n none A B (ix2 p j)).trans ?_
  rw [← Equiv.sum_comp (ValueIdx.contrEquiv1 dot_S256x512_S512x16_S256x16_1_0_0_1_n_n 512 rfl rfl).symm]
  refine Finset.sum_congr rfl fun k _ => ?_
  have hk := ValueIdx.contrEquiv1_symm_val dot_S256x512_S512x16_S256x16_1_0_0_1_n_n 512 rfl rfl k
  have el : dot_S256x512_S512x16_S256x16_1_0_0_1_n_n.lhsIdx (ix2 p j) ((ValueIdx.contrEquiv1 dot_S256x512_S512x16_S256x16_1_0_0_1_n_n 512 rfl rfl).symm k) = ix2 p k :=
    funext fun a => Fin.ext (by
      match a with
      | ⟨0, _⟩ => exact mmB_lhs_row _ _
      | ⟨1, _⟩ => exact (mmB_lhs_col _ _).trans hk)
  have er : dot_S256x512_S512x16_S256x16_1_0_0_1_n_n.rhsIdx (ix2 p j) ((ValueIdx.contrEquiv1 dot_S256x512_S512x16_S256x16_1_0_0_1_n_n 512 rfl rfl).symm k) = ix2 k j :=
    funext fun a => Fin.ext (by
      match a with
      | ⟨0, _⟩ => exact (mmB_rhs_row _ _).trans hk
      | ⟨1, _⟩ => exact mmB_rhs_col _ _)
  rw [el, er]

/-! The dimension numbers of the 256×16 by 16×1 product: where its operands are read. -/

theorem mmC_lhs_row (i : S256x1.Idx) (q : dot_S256x16_S16x1_S256x1_1_0_0_1_n_n.contr.Idx) :
    (dot_S256x16_S16x1_S256x1_1_0_0_1_n_n.lhsIdx i q 0).val = (i 0).val := by
  unfold DotDims.lhsIdx
  rw [dif_neg (show ¬(0 : Fin S256x16.rank) ∈ dot_S256x16_S16x1_S256x1_1_0_0_1_n_n.lhsBatch by decide),
    dif_pos (show (0 : Fin S256x16.rank) ∈ dot_S256x16_S16x1_S256x1_1_0_0_1_n_n.lhsNonContracting by decide)]
  rfl
theorem mmC_lhs_col (i : S256x1.Idx) (q : dot_S256x16_S16x1_S256x1_1_0_0_1_n_n.contr.Idx) :
    (dot_S256x16_S16x1_S256x1_1_0_0_1_n_n.lhsIdx i q 1).val = (q ⟨0, by decide⟩).val :=
  dot_S256x16_S16x1_S256x1_1_0_0_1_n_n.lhsIdx_val_of_single rfl i q
theorem mmC_rhs_row (i : S256x1.Idx) (q : dot_S256x16_S16x1_S256x1_1_0_0_1_n_n.contr.Idx) :
    (dot_S256x16_S16x1_S256x1_1_0_0_1_n_n.rhsIdx i q 0).val = (q ⟨0, by decide⟩).val :=
  dot_S256x16_S16x1_S256x1_1_0_0_1_n_n.rhsIdx_val_of_single rfl i q
theorem mmC_rhs_col (i : S256x1.Idx) (q : dot_S256x16_S16x1_S256x1_1_0_0_1_n_n.contr.Idx) :
    (dot_S256x16_S16x1_S256x1_1_0_0_1_n_n.rhsIdx i q 1).val = (i 1).val := by
  unfold DotDims.rhsIdx
  rw [dif_neg (show ¬(1 : Fin S16x1.rank) ∈ dot_S256x16_S16x1_S256x1_1_0_0_1_n_n.rhsBatch by decide),
    dif_pos (show (1 : Fin S16x1.rank) ∈ dot_S256x16_S16x1_S256x1_1_0_0_1_n_n.rhsNonContracting by decide)]
  rfl

/-- The 256×16 by 16×1 product into the zero splat, at entry (p, j): the sum over the 16 contracted positions
    of the left operand's row p times the right operand's column j. -/
theorem mmC_apply {φ₁ φ₂ : FTy} (A : FVec Ideal S256x16 φ₁) (B : FVec Ideal S16x1 φ₂) (p : Fin 256) (j : Fin 1) :
    matmul dot_S256x16_S16x1_S256x1_1_0_0_1_n_n none A B (constant (F := Ideal) S256x1 .f32 0x00000000#32) (ix2 p j)
      = ∑ k : Fin 16, A (ix2 p k) * B (ix2 k j) := by
  refine (Ideal.matmul_constant_zero_apply dot_S256x16_S16x1_S256x1_1_0_0_1_n_n none A B (ix2 p j)).trans ?_
  rw [← Equiv.sum_comp (ValueIdx.contrEquiv1 dot_S256x16_S16x1_S256x1_1_0_0_1_n_n 16 rfl rfl).symm]
  refine Finset.sum_congr rfl fun k _ => ?_
  have hk := ValueIdx.contrEquiv1_symm_val dot_S256x16_S16x1_S256x1_1_0_0_1_n_n 16 rfl rfl k
  have el : dot_S256x16_S16x1_S256x1_1_0_0_1_n_n.lhsIdx (ix2 p j) ((ValueIdx.contrEquiv1 dot_S256x16_S16x1_S256x1_1_0_0_1_n_n 16 rfl rfl).symm k) = ix2 p k :=
    funext fun a => Fin.ext (by
      match a with
      | ⟨0, _⟩ => exact mmC_lhs_row _ _
      | ⟨1, _⟩ => exact (mmC_lhs_col _ _).trans hk)
  have er : dot_S256x16_S16x1_S256x1_1_0_0_1_n_n.rhsIdx (ix2 p j) ((ValueIdx.contrEquiv1 dot_S256x16_S16x1_S256x1_1_0_0_1_n_n 16 rfl rfl).symm k) = ix2 k j :=
    funext fun a => Fin.ext (by
      match a with
      | ⟨0, _⟩ => exact (mmC_rhs_row _ _).trans hk
      | ⟨1, _⟩ => exact mmC_rhs_col _ _)
  rw [el, er]

/-! Layout: a vector laid along every row of a block, and a column laid along every column. -/

section Layout
variable {α : Type}

/-- A vector of n entries, cast to one row and broadcast down m rows, reads at (p, j) its entry j. -/
theorem rowBroadcast_apply {m n : Nat} (x : (⟨1, ![n]⟩ : Shape).Idx → α)
    (hc : (⟨1, ![n]⟩ : Shape).ShapeCasts ⟨2, ![1, n]⟩) (hb : (⟨2, ![1, n]⟩ : Shape).Broadcasts ⟨2, ![m, n]⟩)
    (p : Fin m) (j : Fin n) :
    broadcastTo ⟨2, ![m, n]⟩ (shapeCast ⟨2, ![1, n]⟩ x hc) hb (ix2 p j) = x (ix1 j) := by
  have hrow : broadcastTo ⟨2, ![m, n]⟩ (shapeCast ⟨2, ![1, n]⟩ x hc) hb (ix2 p j)
      = shapeCast ⟨2, ![1, n]⟩ x hc (ix2 (0 : Fin 1) j) :=
    broadcastTo_apply (shapeCast ⟨2, ![1, n]⟩ x hc) hb (ix2 p j) (ix2 (0 : Fin 1) j) (fun a => by
      match a with
      | ⟨0, _⟩ => rfl
      | ⟨1, _⟩ =>
        show j.val = if n = 1 then 0 else j.val
        split
        · have := j.isLt; omega
        · rfl)
  have hcast : shapeCast ⟨2, ![1, n]⟩ x hc (ix2 (0 : Fin 1) j) = x (ix1 j) :=
    shapeCast_apply x hc (ix2 (0 : Fin 1) j) (ix1 j) (by
      rw [Shape.rowMajor_val_two, Shape.rowMajor_val_one]
      show j.val = 0 * n + j.val
      omega)
  exact hrow.trans hcast

/-- A column of m entries broadcast along n columns reads at (p, j) its entry p. -/
theorem colBroadcast_apply {m n : Nat} (x : (⟨2, ![m, 1]⟩ : Shape).Idx → α)
    (hb : (⟨2, ![m, 1]⟩ : Shape).Broadcasts ⟨2, ![m, n]⟩) (p : Fin m) (j : Fin n) :
    broadcastTo ⟨2, ![m, n]⟩ x hb (ix2 p j) = x (ix2 p (0 : Fin 1)) :=
  broadcastTo_apply x hb (ix2 p j) (ix2 p (0 : Fin 1)) (fun a => by
    match a with
    | ⟨0, _⟩ =>
      show p.val = if m = 1 then 0 else p.val
      split
      · have := p.isLt; omega
      · rfl
    | ⟨1, _⟩ => rfl)

end Layout

/-! The gate's column as the body spells it, in two stages after the affine layer: the 16 hidden
    pre-activations of every row, and the scalar of every row. -/

section Stages
variable {F : FTy → Type} [FloatOps F]

/-- The 256 × 16 block of hidden pre-activations, without their bias: the affine layer's block `z` plus the bias
    `b` laid along every row, against the 512 × 16 weights, accumulated into zero. -/
def hidPre (z : FVec F S256x512 .f32) (b : Vec F S512 .f32) (W1 : Vec F S512x16 .f32) : FVec F S256x16 .f32 :=
  matmul dot_S256x512_S512x16_S256x16_1_0_0_1_n_n none
    (truncf .bf16 (addf z (broadcastTo S256x512 (shapeCast S1x512 b shapeCasts_S512_S1x512) broadcasts_S1x512_S256x512))
      bitsLt_bf16_f32)
    (truncf .bf16 W1 bitsLt_bf16_f32) (constant S256x16 .f32 0x00000000#32)

/-- The 256 × 1 column of gate scalars from the hidden pre-activations `h`: bias `b1` along every row, rectified,
    against the 16 × 1 weights accumulated into zero, plus the bias `b2`, through the hyperbolic tangent. -/
def core (h : FVec F S256x16 .f32) (b1 : Vec F S16 .f32) (W2 : Vec F S16x1 .f32) (b2 : Vec F S1 .f32) : FVec F S256x1 .f32 :=
  tanh (addf
    (matmul dot_S256x16_S16x1_S256x1_1_0_0_1_n_n none
      (truncf .bf16
        (maximumf (addf h (broadcastTo S256x16 (shapeCast S1x16 b1 shapeCasts_S16_S1x16) broadcasts_S1x16_S256x16))
          (broadcast S256x16 (Scalar.ofBits .f32 0x00000000#32)))
        bitsLt_bf16_f32)
      (truncf .bf16 W2 bitsLt_bf16_f32) (constant S256x1 .f32 0x00000000#32))
    (broadcastTo S256x1 (shapeCast S1x1 b2 shapeCasts_S1_S1x1) broadcasts_S1x1_S256x1))

/-- The forget gate's payload is the logistic of the two stages over the affine block. -/
theorem pay5_eq (v0 v2 : Vec F S256x512 .f32) (v5 v7 : Vec F S512x512 .f32) (v12 : Vec F S512 .f32)
    (v17 : Vec F S512x16 .f32) (v20 : Vec F S16 .f32) (v27 : Vec F S16x1 .f32) (v30 : Vec F S1 .f32) :
    k0_pay5 v0 v2 v5 v7 v12 v17 v20 v27 v30
      = logistic (core (hidPre (k0_pay7 (k0_pay3 v0) (k0_pay4 v2) v5 v7) v12 v17) v20 v27 v30) := rfl

/-- The input gate's payload likewise. -/
theorem pay6_eq (v1 v3 : FVec F S256x512 .bf16) (v36 v38 : Vec F S512x512 .f32) (v43 : Vec F S512 .f32)
    (v48 : Vec F S512x16 .f32) (v51 : Vec F S16 .f32) (v58 : Vec F S16x1 .f32) (v61 : Vec F S1 .f32) :
    k0_pay6 v1 v3 v36 v38 v43 v48 v51 v58 v61
      = logistic (core (hidPre (k0_pay7 v1 v3 v36 v38) v43 v48) v51 v58 v61) := rfl

/-- The update gate's payload is the hyperbolic tangent of the two stages. -/
theorem pay8_eq (z : FVec F S256x512 .f32) (v74 : Vec F S512 .f32)
    (v79 : Vec F S512x16 .f32) (v82 : Vec F S16 .f32) (v89 : Vec F S16x1 .f32) (v92 : Vec F S1 .f32) :
    k0_pay8 z v74 v79 v82 v89 v92 = tanh (core (hidPre z v74 v79) v82 v89 v92) := rfl

/-- The output gate's hidden pre-activations are the first stage. -/
theorem pay9_eq (v1 v3 : FVec F S256x512 .bf16) (v98 v100 : Vec F S512x512 .f32) (v105 : Vec F S512 .f32)
    (v110 : Vec F S512x16 .f32) :
    k0_pay9 v1 v3 v98 v100 v105 v110 = hidPre (k0_pay7 v1 v3 v98 v100) v105 v110 := rfl

/-- The stored hidden block is the output gate's logistic column laid along the columns, times the hyperbolic
    tangent of the stored cell block. -/
theorem pay2_eq (v4 : Vec F S256x512 .f32) (f i g : FVec F S256x1 .f32) (h : FVec F S256x16 .f32)
    (v113 : Vec F S16 .f32) (v120 : Vec F S16x1 .f32) (v123 : Vec F S1 .f32) :
    k0_pay2 v4 f i g h v113 v120 v123
      = mulf (broadcastTo S256x512 (logistic (core h v113 v120 v123)) broadcasts_S256x1_S256x512)
          (tanh (k0_pay1 v4 f i g)) := rfl

end Stages

/-! The stages read at an index, at the ideal values. -/

/-- The affine block at (p, j): row p of the input block against column j of the top weights plus row p of the
    hidden block against column j of the bottom weights. -/
theorem affine_apply (v0 v2 : Vec Ideal S256x512 .f32) (Wt Wb : Vec Ideal S512x512 .f32) (p : Fin 256) (j : Fin 512) :
    k0_pay7 (F := Ideal) (k0_pay3 v0) (k0_pay4 v2) Wt Wb (ix2 p j)
      = ∑ k : Fin 512, brow v0 p k * Wt (ix2 k j) + ∑ k : Fin 512, brow v2 p k * Wb (ix2 k j) := by
  unfold k0_pay7 k0_pay3 k0_pay4
  exact congrArg₂ (· + ·) (mmA_apply _ _ p j) (mmA_apply _ _ p j)

/-- The hidden pre-activations at (p, q): the affine block's row p, with the bias, against column q of the weights. -/
theorem hidPre_apply (z : FVec Ideal S256x512 .f32) (b : Vec Ideal S512 .f32) (W1 : Vec Ideal S512x16 .f32)
    (p : Fin 256) (q : Fin 16) :
    hidPre (F := Ideal) z b W1 (ix2 p q) = ∑ j : Fin 512, (z (ix2 p j) + b (ix1 j)) * W1 (ix2 j q) := by
  unfold hidPre
  refine (mmB_apply _ _ p q).trans (Finset.sum_congr rfl fun j _ => ?_)
  exact congrArg (fun t => (z (ix2 p j) + t) * W1 (ix2 j q)) (rowBroadcast_apply b _ _ p j)

/-- The gate scalar of row p from the hidden pre-activations. -/
theorem core_apply (h : FVec Ideal S256x16 .f32) (b1 : Vec Ideal S16 .f32) (W2 : Vec Ideal S16x1 .f32)
    (b2 : Vec Ideal S1 .f32) (p : Fin 256) :
    core (F := Ideal) h b1 W2 b2 (ix2 p (0 : Fin 1))
      = Ideal.tanh ((∑ q : Fin 16, max (h (ix2 p q) + b1 (ix1 q)) (Ideal.ofBits .f32 0x00000000#32) * W2 (ix2 q (0 : Fin 1)))
          + b2 (ix1 (0 : Fin 1))) := by
  unfold core
  refine congrArg Ideal.tanh (congrArg₂ (· + ·) ((mmC_apply _ _ p 0).trans (Finset.sum_congr rfl fun q _ => ?_))
    (rowBroadcast_apply b2 _ _ p 0))
  exact congrArg (fun t => max (h (ix2 p q) + t) (Ideal.ofBits .f32 0x00000000#32) * W2 (ix2 q (0 : Fin 1)))
    (rowBroadcast_apply b1 _ _ p q)

/-- The two stages over the affine block, at row p, are the row's gate scalar. -/
theorem gate_apply (v0 v2 : Vec Ideal S256x512 .f32) (Wt Wb : Vec Ideal S512x512 .f32) (b : Vec Ideal S512 .f32)
    (W1 : Vec Ideal S512x16 .f32) (b1 : Vec Ideal S16 .f32) (W2 : Vec Ideal S16x1 .f32) (b2 : Vec Ideal S1 .f32) (p : Fin 256) :
    core (F := Ideal) (hidPre (k0_pay7 (k0_pay3 v0) (k0_pay4 v2) Wt Wb) b W1) b1 W2 b2 (ix2 p (0 : Fin 1))
      = gateCore (brow v0 p) (brow v2 p) Wt Wb b W1 b1 W2 b2 := by
  refine (core_apply _ b1 W2 b2 p).trans ?_
  unfold gateCore hid
  refine congrArg Ideal.tanh (congrArg (· + b2 (ix1 (0 : Fin 1))) (Finset.sum_congr rfl fun q _ => ?_))
  refine congrArg (fun t => max (t + b1 (ix1 q)) (Ideal.ofBits .f32 0x00000000#32) * W2 (ix2 q (0 : Fin 1))) ?_
  refine (hidPre_apply _ b W1 p q).trans (Finset.sum_congr rfl fun j _ => ?_)
  unfold lin
  exact congrArg (fun t => (t + b (ix1 j)) * W1 (ix2 j q)) (affine_apply v0 v2 Wt Wb p j)

/-! The five payloads. -/

/-- The forget gate's column of the block at row `p`: the logistic of the row's gate scalar. -/
theorem gate_f_apply (v0 v2 : Vec Ideal S256x512 .f32) (v5 v7 : Vec Ideal S512x512 .f32) (v12 : Vec Ideal S512 .f32)
    (v17 : Vec Ideal S512x16 .f32) (v20 : Vec Ideal S16 .f32) (v27 : Vec Ideal S16x1 .f32) (v30 : Vec Ideal S1 .f32) (p : Fin 256) :
    k0_pay5 (F := Ideal) v0 v2 v5 v7 v12 v17 v20 v27 v30 (ix2 p (0 : Fin 1))
      = Ideal.logistic (gateCore (brow v0 p) (brow v2 p) v5 v7 v12 v17 v20 v27 v30) := by
  rw [pay5_eq]
  exact congrArg Ideal.logistic (gate_apply v0 v2 v5 v7 v12 v17 v20 v27 v30 p)

/-- The input gate's column at row `p`. -/
theorem gate_i_apply (v0 v2 : Vec Ideal S256x512 .f32) (v36 v38 : Vec Ideal S512x512 .f32) (v43 : Vec Ideal S512 .f32)
    (v48 : Vec Ideal S512x16 .f32) (v51 : Vec Ideal S16 .f32) (v58 : Vec Ideal S16x1 .f32) (v61 : Vec Ideal S1 .f32) (p : Fin 256) :
    k0_pay6 (F := Ideal) (k0_pay3 v0) (k0_pay4 v2) v36 v38 v43 v48 v51 v58 v61 (ix2 p (0 : Fin 1))
      = Ideal.logistic (gateCore (brow v0 p) (brow v2 p) v36 v38 v43 v48 v51 v58 v61) := by
  rw [pay6_eq]
  exact congrArg Ideal.logistic (gate_apply v0 v2 v36 v38 v43 v48 v51 v58 v61 p)

/-- The update gate's column at row `p`: the hyperbolic tangent of the row's gate scalar. -/
theorem gate_u_apply (v0 v2 : Vec Ideal S256x512 .f32) (v67 v69 : Vec Ideal S512x512 .f32) (v74 : Vec Ideal S512 .f32)
    (v79 : Vec Ideal S512x16 .f32) (v82 : Vec Ideal S16 .f32) (v89 : Vec Ideal S16x1 .f32) (v92 : Vec Ideal S1 .f32) (p : Fin 256) :
    k0_pay8 (F := Ideal) (k0_pay7 (k0_pay3 v0) (k0_pay4 v2) v67 v69) v74 v79 v82 v89 v92 (ix2 p (0 : Fin 1))
      = Ideal.tanh (gateCore (brow v0 p) (brow v2 p) v67 v69 v74 v79 v82 v89 v92) := by
  rw [pay8_eq]
  exact congrArg Ideal.tanh (gate_apply v0 v2 v67 v69 v74 v79 v82 v89 v92 p)

/-- The stored new-cell block at (p, j), from the three gate columns and the old cell block. -/
theorem c_apply (v4 : Vec Ideal S256x512 .f32) (f i g : FVec Ideal S256x1 .f32) (p : Fin 256) (j : Fin 512) :
    k0_pay1 (F := Ideal) v4 f i g (ix2 p j) = f (ix2 p (0 : Fin 1)) * v4 (ix2 p j) + i (ix2 p (0 : Fin 1)) * g (ix2 p (0 : Fin 1)) := by
  unfold k0_pay1
  exact congrArg₂ (· + ·) (congrArg (· * v4 (ix2 p j)) (colBroadcast_apply f _ p j))
    (colBroadcast_apply (mulf i g) _ p j)

/-- The stored new-hidden block at (p, j): the logistic of the output gate's scalar times the hyperbolic tangent of the new cell entry. -/
theorem h_apply (v4 : Vec Ideal S256x512 .f32) (f i g : FVec Ideal S256x1 .f32) (v0 v2 : Vec Ideal S256x512 .f32)
    (v98 v100 : Vec Ideal S512x512 .f32) (v105 : Vec Ideal S512 .f32) (v110 : Vec Ideal S512x16 .f32) (v113 : Vec Ideal S16 .f32)
    (v120 : Vec Ideal S16x1 .f32) (v123 : Vec Ideal S1 .f32) (p : Fin 256) (j : Fin 512) :
    k0_pay2 (F := Ideal) v4 f i g (k0_pay9 (k0_pay3 v0) (k0_pay4 v2) v98 v100 v105 v110) v113 v120 v123 (ix2 p j)
      = Ideal.logistic (gateCore (brow v0 p) (brow v2 p) v98 v100 v105 v110 v113 v120 v123)
        * Ideal.tanh (k0_pay1 (F := Ideal) v4 f i g (ix2 p j)) := by
  rw [pay2_eq, pay9_eq]
  refine congrArg (· * Ideal.tanh (k0_pay1 (F := Ideal) v4 f i g (ix2 p j))) ?_
  refine (colBroadcast_apply _ _ p j).trans ?_
  exact congrArg Ideal.logistic (gate_apply v0 v2 v98 v100 v105 v110 v113 v120 v123 p)

end Cert.KernelIdeal.KerCell

end
-- ==== Proof.KerBlock.lean ====
/-
  What the kernel body leaves in its two output blocks, entry by entry.

  At a grid point the body holds a 256-row block of each of x, h and c and the whole of every weight array. The
  block it stores to the new-cell window has, at (p, j), the value
      σ(gate_f(row p)) · c[p, j] + σ(gate_i(row p)) · tanh(gate_u(row p)),
  and the block it stores to the new-hidden window has σ(gate_o(row p)) · tanh of that, where each gate scalar is
  `Cell.gateCore` of row p of the x block and of the h block, the two halves of the gate's 1024 × 512 matrix being
  its first and its last 512 rows (the body loads them through two rectangles of the same buffer).
-/
import proofs.«105010_j65481071407962_1_alg».proof.Proof.KernelIdealFrame
import proofs.«105010_j65481071407962_1_alg».proof.Proof.KerCell
import proofs.«105010_j65481071407962_1_alg».proof.Proof.Cell
import Idealize.ShloMosaic.Lib.Pipeline.Value
import Idealize.ShloMosaic.Lib.ValueIdx

noncomputable section

namespace Cert.KernelIdeal.KerBlock

open Cert.KernelIdeal Cert.KernelIdeal.Gen Cert.KernelIdeal.GenP Cert.KernelIdeal.KerCell Cert.Cell
open Idealize.ShloMosaic Idealize.ShloMosaic.ValueIdx

theorem zeros2 : (![0, 0] : Fin 2 → Nat) = fun _ => 0 := funext fun a => by fin_cases a <;> rfl
theorem zeros1 : (![0] : Fin 1 → Nat) = fun _ => 0 := funext fun a => by fin_cases a; rfl

/-- The rectangle of the first 512 rows of a 1024 × 512 buffer reads its first half. -/
theorem ld_first_rows (x : Vec Ideal S1024x512 .f32) : View.ld x r0_1 = topHalf x := by
  funext y
  show x (r0_1.emb y) = x (ix2 (top (y 0 : Fin 512)) (y 1 : Fin 512))
  refine congrArg x (funext fun a => Fin.ext ?_)
  match a with
  | ⟨0, _⟩ => show 0 + 1 * (y 0).val = (y 0).val; omega
  | ⟨1, _⟩ => show 0 + 1 * (y 1).val = (y 1).val; omega

/-- The rectangle of the last 512 rows of a 1024 × 512 buffer reads its second half. -/
theorem ld_last_rows (x : Vec Ideal S1024x512 .f32) : View.ld x r0_2 = botHalf x := by
  funext y
  show x (r0_2.emb y) = x (ix2 (bot (y 0 : Fin 512)) (y 1 : Fin 512))
  refine congrArg x (funext fun a => Fin.ext ?_)
  match a with
  | ⟨0, _⟩ => show 512 + 1 * (y 0).val = 512 + (y 0).val; omega
  | ⟨1, _⟩ => show 0 + 1 * (y 1).val = (y 1).val; omega

/-- The new-cell block at (p, j). -/
theorem cblock_apply (x0 x1 x2 : Vec Ideal S256x512 .f32) (x3 : Vec Ideal S1024x512 .f32) (x4 : Vec Ideal S512 .f32) (x5 : Vec Ideal S512x16 .f32) (x6 : Vec Ideal S16 .f32) (x7 : Vec Ideal S16x1 .f32) (x8 : Vec Ideal S1 .f32) (x9 : Vec Ideal S1024x512 .f32) (x10 : Vec Ideal S512 .f32) (x11 : Vec Ideal S512x16 .f32) (x12 : Vec Ideal S16 .f32) (x13 : Vec Ideal S16x1 .f32) (x14 : Vec Ideal S1 .f32) (x15 : Vec Ideal S1024x512 .f32) (x16 : Vec Ideal S512 .f32) (x17 : Vec Ideal S512x16 .f32) (x18 : Vec Ideal S16 .f32) (x19 : Vec Ideal S16x1 .f32) (x20 : Vec Ideal S1 .f32) (x21 : Vec Ideal S1024x512 .f32) (x22 : Vec Ideal S512 .f32) (x23 : Vec Ideal S512x16 .f32) (x24 : Vec Ideal S16 .f32) (x25 : Vec Ideal S16x1 .f32) (x26 : Vec Ideal S1 .f32)
    (p : Fin 256) (j : Fin 512) :
    out0_28 (F := Ideal) x0 x1 x2 x3 x4 x5 x6 x7 x8 x9 x10 x11 x12 x13 x14 x15 x16 x17 x18 x19 x20 x21 x22 x23 x24 x25 x26 (ix2 p j)
      = cellOf (gateCore (brow x0 p) (brow x1 p) (topHalf x3) (botHalf x3) x4 x5 x6 x7 x8) (gateCore (brow x0 p) (brow x1 p) (topHalf x9) (botHalf x9) x10 x11 x12 x13 x14) (gateCore (brow x0 p) (brow x1 p) (topHalf x15) (botHalf x15) x16 x17 x18 x19 x20) (x2 (ix2 p j)) := by
  unfold out0_28
  rw [View.canon_unit_zero zeros2]
  simp only [View.ld_unit_zero (S := S256x512) zeros2, View.ld_unit_zero (S := S512) zeros1, View.ld_unit_zero (S := S512x16) zeros2,
    View.ld_unit_zero (S := S16) zeros1, View.ld_unit_zero (S := S16x1) zeros2, View.ld_unit_zero (S := S1) zeros1,
    ld_first_rows, ld_last_rows]
  rw [c_apply, gate_f_apply, gate_i_apply, gate_u_apply]
  rfl

/-- The new-hidden block at (p, j). -/
theorem hblock_apply (x0 x1 x2 : Vec Ideal S256x512 .f32) (x3 : Vec Ideal S1024x512 .f32) (x4 : Vec Ideal S512 .f32) (x5 : Vec Ideal S512x16 .f32) (x6 : Vec Ideal S16 .f32) (x7 : Vec Ideal S16x1 .f32) (x8 : Vec Ideal S1 .f32) (x9 : Vec Ideal S1024x512 .f32) (x10 : Vec Ideal S512 .f32) (x11 : Vec Ideal S512x16 .f32) (x12 : Vec Ideal S16 .f32) (x13 : Vec Ideal S16x1 .f32) (x14 : Vec Ideal S1 .f32) (x15 : Vec Ideal S1024x512 .f32) (x16 : Vec Ideal S512 .f32) (x17 : Vec Ideal S512x16 .f32) (x18 : Vec Ideal S16 .f32) (x19 : Vec Ideal S16x1 .f32) (x20 : Vec Ideal S1 .f32) (x21 : Vec Ideal S1024x512 .f32) (x22 : Vec Ideal S512 .f32) (x23 : Vec Ideal S512x16 .f32) (x24 : Vec Ideal S16 .f32) (x25 : Vec Ideal S16x1 .f32) (x26 : Vec Ideal S1 .f32)
    (p : Fin 256) (j : Fin 512) :
    out0_27 (F := Ideal) x0 x1 x2 x3 x4 x5 x6 x7 x8 x9 x10 x11 x12 x13 x14 x15 x16 x17 x18 x19 x20 x21 x22 x23 x24 x25 x26 (ix2 p j)
      = hiddenOf (gateCore (brow x0 p) (brow x1 p) (topHalf x21) (botHalf x21) x22 x23 x24 x25 x26) (cellOf (gateCore (brow x0 p) (brow x1 p) (topHalf x3) (botHalf x3) x4 x5 x6 x7 x8) (gateCore (brow x0 p) (brow x1 p) (topHalf x9) (botHalf x9) x10 x11 x12 x13 x14) (gateCore (brow x0 p) (brow x1 p) (topHalf x15) (botHalf x15) x16 x17 x18 x19 x20) (x2 (ix2 p j))) := by
  unfold out0_27
  rw [View.canon_unit_zero zeros2]
  simp only [View.ld_unit_zero (S := S256x512) zeros2, View.ld_unit_zero (S := S512) zeros1, View.ld_unit_zero (S := S512x16) zeros2,
    View.ld_unit_zero (S := S16) zeros1, View.ld_unit_zero (S := S16x1) zeros2, View.ld_unit_zero (S := S1) zeros1,
    ld_first_rows, ld_last_rows]
  rw [h_apply, c_apply, gate_f_apply, gate_i_apply, gate_u_apply]
  rfl

end Cert.KernelIdeal.KerBlock

end
-- ==== Proof.KerRun.lean ====
/-
  From the blocks to the arrays: the kernel's two result arrays after its run.

  The grid has 64 points; point t holds rows 256·t … 256·t + 255 of x, h and c, the whole of every weight array, and
  writes back rows 256·t … 256·t + 255 of the two results. Row p of point t's blocks is row 256·t + p of the arrays,
  so by the block-level reading each written-back block is that block of the row-wise cell's arrays `Cell.hArr` /
  `Cell.cArr` of the argument arrays; the 64 blocks tile the 16384 rows (row r lies in block r / 256), hence after
  the run the two result arrays ARE those arrays.
-/
import proofs.«105010_j65481071407962_1_alg».proof.Proof.KernelIdealValue
import proofs.«105010_j65481071407962_1_alg».proof.Proof.WinBlocks
import proofs.«105010_j65481071407962_1_alg».proof.Proof.KerBlock
import proofs.«105010_j65481071407962_1_alg».proof.Proof.Cell
import Idealize.ShloMosaic.Lib.Pipeline.Value
import Idealize.ShloMosaic.Lib.ValueIdx

noncomputable section

namespace Cert.KernelIdeal.KerRun

open Cert.KernelIdeal Cert.KernelIdeal.Gen Cert.KernelIdeal.GenP Cert.KernelIdeal.ValueP Cert.KernelIdeal.WinBlocks
open Cert.KernelIdeal.KerBlock Cert.KernelIdeal.KerCell Cert.Cell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three data arrays as the region finds them. -/
abbrev xA (c : Dev nD) : Mat 16384 512 := V m c main_arg0
abbrev hA (c : Dev nD) : Mat 16384 512 := V m c main_arg1
abbrev cA (c : Dev nD) : Mat 16384 512 := V m c main_arg2

/-- The four gates' weights as the region finds them. -/
abbrev gwF (c : Dev nD) : GateW := ⟨V m c main_arg3, V m c main_arg4, V m c main_arg5, V m c main_arg6, V m c main_arg7, V m c main_arg8⟩
abbrev gwI (c : Dev nD) : GateW := ⟨V m c main_arg9, V m c main_arg10, V m c main_arg11, V m c main_arg12, V m c main_arg13, V m c main_arg14⟩
abbrev gwU (c : Dev nD) : GateW := ⟨V m c main_arg15, V m c main_arg16, V m c main_arg17, V m c main_arg18, V m c main_arg19, V m c main_arg20⟩
abbrev gwO (c : Dev nD) : GateW := ⟨V m c main_arg21, V m c main_arg22, V m c main_arg23, V m c main_arg24, V m c main_arg25, V m c main_arg26⟩

/-- The new hidden array and the new cell array of the arrays the region finds. -/
abbrev hOut (c : Dev nD) : Mat 16384 512 := hArr (gwF m c) (gwI m c) (gwU m c) (gwO m c) (xA m c) (hA m c) (cA m c)
abbrev cOut (c : Dev nD) : Mat 16384 512 := cArr (gwF m c) (gwI m c) (gwU m c) (xA m c) (hA m c) (cA m c)

/-- The five row-blocked windows (x, h, c and the two results) all sit at block row t, block column 0 (decided over the grid). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_27.index t (0 : Fin 2) = t.val ∧ win0_27.index t (1 : Fin 2) = 0
    ∧ win0_28.index t (0 : Fin 2) = t.val ∧ win0_28.index t (1 : Fin 2) = 0 :=
  (by decide +kernel : ∀ t : Fin grid0.N, _)

/-- Every block row 0 … 63 is some point's. -/
theorem idx_onto : ∀ q : Fin 64, ∃ t : Fin cfg0.N, t.val = q.val :=
  (by decide +kernel : ∀ q : Fin 64, ∃ t : Fin grid0.N, t.val = q.val)

/-- The array row that row `p` of point `t`'s blocks is. -/
abbrev grow (t : Fin cfg0.N) (p : Fin 256) : Fin 16384 :=
  ⟨256 * t.val + p.val, by have := t.isLt; have := p.isLt; have : cfg0.N = 64 := N_0; omega⟩

/-- Row p of the x block at point t is row 256·t + p of x. -/
theorem xrow (c : Dev nD) (t : Fin cfg0.N) (p : Fin 256) : brow (iblk m c 0 t) p = row (xA m c) (grow t p) := by
  obtain ⟨e0, e1, -⟩ := idx_rows t
  funext k
  show V m c main_arg0 (((cfg0.win 0).blk t).view.emb (ix2 p k)) = V m c main_arg0 (ix2 (grow t p) k)
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 512 + 1 * k.val = k.val; omega

/-- Row p of the h block at point t is row 256·t + p of h. -/
theorem hrow (c : Dev nD) (t : Fin cfg0.N) (p : Fin 256) : brow (iblk m c 1 t) p = row (hA m c) (grow t p) := by
  obtain ⟨-, -, e0, e1, -⟩ := idx_rows t
  funext k
  show V m c main_arg1 (((cfg0.win 1).blk t).view.emb (ix2 p k)) = V m c main_arg1 (ix2 (grow t p) k)
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 512 + 1 * k.val = k.val; omega

/-- Entry (p, j) of the c block at point t is entry (256·t + p, j) of c. -/
theorem centry (c : Dev nD) (t : Fin cfg0.N) (p : Fin 256) (j : Fin 512) :
    (iblk m c 2 t : Vec Ideal S256x512 .f32) (ix2 p j) = cA m c (ix2 (grow t p) j) := by
  obtain ⟨-, -, -, -, e0, e1, -⟩ := idx_rows t
  show V m c main_arg2 (((cfg0.win 2).blk t).view.emb (ix2 p j)) = V m c main_arg2 (ix2 (grow t p) j)
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 512 + 1 * j.val = j.val; omega

/-- Entry (p, j) of point t's block of the new-hidden result is array entry (256·t + p, j). -/
theorem emb27 (t : Fin cfg0.N) (p : Fin 256) (j : Fin 512) :
    ((cfg0.win 27).blk t).view.emb (ix2 p j) = (ix2 (grow t p) j : S16384x512.Idx) := by
  obtain ⟨-, -, -, -, -, -, e0, e1, -⟩ := idx_rows t
  refine funext fun a => Fin.ext ?_
  match a with
  | ⟨0, _⟩ => show win0_27.index t (0 : Fin 2) * 256 + 1 * p.val = 256 * t.val + p.val; omega
  | ⟨1, _⟩ => show win0_27.index t (1 : Fin 2) * 512 + 1 * j.val = j.val; omega

/-- Entry (p, j) of point t's block of the new-cell result is array entry (256·t + p, j). -/
theorem emb28 (t : Fin cfg0.N) (p : Fin 256) (j : Fin 512) :
    ((cfg0.win 28).blk t).view.emb (ix2 p j) = (ix2 (grow t p) j : S16384x512.Idx) := by
  obtain ⟨-, -, -, -, -, -, -, -, e0, e1⟩ := idx_rows t
  refine funext fun a => Fin.ext ?_
  match a with
  | ⟨0, _⟩ => show win0_28.index t (0 : Fin 2) * 256 + 1 * p.val = 256 * t.val + p.val; omega
  | ⟨1, _⟩ => show win0_28.index t (1 : Fin 2) * 512 + 1 * j.val = j.val; omega

/-- What point t writes back to the new-hidden result is block t of `hOut`. -/
theorem flushed27_eq (c : Dev nD) (t : Fin cfg0.N) :
    (dats m 0 c).flushed 27 t = ((cfg0.win 27).blk t).view.read (Elt Ideal) (hOut m c) := by
  rw [flushed27]
  funext y
  obtain ⟨p, j, rfl⟩ : ∃ (p : Fin 256) (j : Fin 512), y = ix2 p j := ⟨y 0, y 1, eq_ix2 y⟩
  show out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (ix2 p j) = hOut m c (((cfg0.win 27).blk t).view.emb (ix2 p j))
  rw [emb27]
  refine (hblock_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) p j).trans ?_
  rw [xrow, hrow, centry, wblk3, wblk4, wblk5, wblk6, wblk7, wblk8, wblk9, wblk10, wblk11, wblk12, wblk13, wblk14, wblk15, wblk16, wblk17, wblk18, wblk19, wblk20, wblk21, wblk22, wblk23, wblk24, wblk25, wblk26]
  rfl

/-- What point t writes back to the new-cell result is block t of `cOut`. -/
theorem flushed28_eq (c : Dev nD) (t : Fin cfg0.N) :
    (dats m 0 c).flushed 28 t = ((cfg0.win 28).blk t).view.read (Elt Ideal) (cOut m c) := by
  rw [flushed28]
  funext y
  obtain ⟨p, j, rfl⟩ : ∃ (p : Fin 256) (j : Fin 512), y = ix2 p j := ⟨y 0, y 1, eq_ix2 y⟩
  show out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (ix2 p j) = cOut m c (((cfg0.win 28).blk t).view.emb (ix2 p j))
  rw [emb28]
  refine (cblock_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) p j).trans ?_
  rw [xrow, hrow, centry, wblk3, wblk4, wblk5, wblk6, wblk7, wblk8, wblk9, wblk10, wblk11, wblk12, wblk13, wblk14, wblk15, wblk16, wblk17, wblk18, wblk19, wblk20]
  rfl

/-- An array index is in point t's block of the new-hidden result iff each coordinate is in the block's range. -/
theorem mem_blk27 (t : Fin cfg0.N) (i : S16384x512.Idx) :
    i ∈ ((cfg0.win 27).blk t).view.set ↔ ∀ a : Fin 2, win0_27.index t a * S256x512.size a ≤ (i a).val ∧ (i a).val < win0_27.index t a * S256x512.size a + S256x512.size a := by
  show i ∈ ((View.whole main_v0_0).slice (win0_27.rect t)).set ↔ _
  rw [View.set_slice_whole, Rect.mem_set_unit]
  exact Iff.rfl

theorem mem_blk28 (t : Fin cfg0.N) (i : S16384x512.Idx) :
    i ∈ ((cfg0.win 28).blk t).view.set ↔ ∀ a : Fin 2, win0_28.index t a * S256x512.size a ≤ (i a).val ∧ (i a).val < win0_28.index t a * S256x512.size a + S256x512.size a := by
  show i ∈ ((View.whole main_v0_1).slice (win0_28.rect t)).set ↔ _
  rw [View.set_slice_whole, Rect.mem_set_unit]
  exact Iff.rfl

/-- Row r of the new-hidden result lies in the block of point r / 256. -/
theorem cover27 (i : S16384x512.Idx) : ∃ t : Fin cfg0.N, (cfg0.win 27).flush t = true ∧ i ∈ ((cfg0.win 27).blk t).view.set := by
  have hi0 : (i 0).val < 16384 := (i 0).isLt
  have hi1 : (i 1).val < 512 := (i 1).isLt
  obtain ⟨t, ht⟩ := idx_onto ⟨(i 0).val / 256, by omega⟩
  have ht' : t.val = (i 0).val / 256 := ht
  obtain ⟨-, -, -, -, -, -, e0, e1, -⟩ := idx_rows t
  refine ⟨t, flush0_27 t, ?_⟩
  rw [mem_blk27]
  intro a
  match a with
  | ⟨0, _⟩ => show win0_27.index t (0 : Fin 2) * 256 ≤ (i 0).val ∧ (i 0).val < win0_27.index t (0 : Fin 2) * 256 + 256; omega
  | ⟨1, _⟩ => show win0_27.index t (1 : Fin 2) * 512 ≤ (i 1).val ∧ (i 1).val < win0_27.index t (1 : Fin 2) * 512 + 512; omega

/-- Row r of the new-cell result lies in the block of point r / 256. -/
theorem cover28 (i : S16384x512.Idx) : ∃ t : Fin cfg0.N, (cfg0.win 28).flush t = true ∧ i ∈ ((cfg0.win 28).blk t).view.set := by
  have hi0 : (i 0).val < 16384 := (i 0).isLt
  have hi1 : (i 1).val < 512 := (i 1).isLt
  obtain ⟨t, ht⟩ := idx_onto ⟨(i 0).val / 256, by omega⟩
  have ht' : t.val = (i 0).val / 256 := ht
  obtain ⟨-, -, -, -, -, -, -, -, e0, e1⟩ := idx_rows t
  refine ⟨t, flush0_28 t, ?_⟩
  rw [mem_blk28]
  intro a
  match a with
  | ⟨0, _⟩ => show win0_28.index t (0 : Fin 2) * 256 ≤ (i 0).val ∧ (i 0).val < win0_28.index t (0 : Fin 2) * 256 + 256; omega
  | ⟨1, _⟩ => show win0_28.index t (1 : Fin 2) * 512 ≤ (i 1).val ∧ (i 1).val < win0_28.index t (1 : Fin 2) * 512 + 512; omega

/-- After the run the new-hidden result array is `hOut`. -/
theorem final27 (c : Dev nD) : (dats m 0 c).arrAt 27 cfg0.N = hOut m c :=
  (dats m 0 c).arrAt_eq_of_cover 27 _ (fun t _ => flushed27_eq m c t) cover27

/-- After the run the new-cell result array is `cOut`. -/
theorem final28 (c : Dev nD) : (dats m 0 c).arrAt 28 cfg0.N = cOut m c :=
  (dats m 0 c).arrAt_eq_of_cover 28 _ (fun t _ => flushed28_eq m c t) cover28

/-- The kernel's run: every weakly fair execution ends with the two results at the row-wise cell's arrays of the
    arguments, the arguments unchanged. -/
theorem run : θ_run defs (onTc (τ := τ) (main (F := Ideal))) ⟨m, fun _ => 0, ρ⟩ fun r => ∀ c : Dev nD,
      r.2.mem ((c : Thread nD τ).loc main_v0_0) = hOut m c
      ∧ r.2.mem ((c : Thread nD τ).loc main_v0_1) = cOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨(h c).1.trans (final27 m c), (h c).2.1.trans (final28 m c), (h c).2.2⟩)
    (run_blocks m ρ)

end Cert.KernelIdeal.KerRun

end
-- ==== Proof.RefCell.lean ====
/-
  The reference program's two results, read stage by stage at an index, are the cell's arrays.

  In row r the concatenation [x | h] reads x[r,k] at column k and h[r,k] at column 512 + k (k < 512). The first
  contraction Σ_{k<1024} [x|h][r,k] · W[k,j] is therefore, split into its two halves of 512 terms,
  Σ_k x[r,k] · Wt[k,j] + Σ_k h[r,k] · Wb[k,j] with Wt and Wb the first and last 512 rows of W; with the bias this is
  `lin`. The second contraction, its bias and the maximum with zero give `hid`; the third contraction, its bias and
  tanh give `gateCore`. The four gates are one and the same function of (x, h, weights), applied to four sets of
  weights. The quotient 1 / (1 + exp (−g)), with one spelt by its float pattern, is the logistic function, and the last
  stages spread each row's scalars along the row: c' = σ(f) · c + σ(i) · tanh(u), h' = σ(o) · tanh(c').
-/
import proofs.«105010_j65481071407962_1_alg».proof.Proof.Gen.ReferenceIdeal.Read
import proofs.«105010_j65481071407962_1_alg».proof.Proof.Cell
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefCell

open Cert.ReferenceIdeal Cert.ReferenceIdeal.Gen Cert.ReferenceIdeal.Read Cert.Cell Idealize.ShloMosaic Idealize.ShloMosaic.ValueIdx
open scoped BigOperators

/-- The contents of an f32 array of shape `s` over the float family `F`. -/
abbrev Arr (F : FTy → Type) (s : Shape) : Type := (⟨s, .f32⟩ : BufTy).Contents (Elt F)

/-! ## The concatenation at an index -/

/-- Column `k` of the first half of the concatenation is column `k` of the first piece. -/
theorem cat_top (x h : Arr Ideal S16384x512) (r : Fin 16384) (k : Fin 512) :
    val_main_v0 (F := Ideal) x h (ix2 r (top k)) = x (ix2 r k) := by
  unfold val_main_v0
  exact concatenate_pair_apply_left _ x h _ (ix2 r (top k)) rfl (ix2 r k)
    (fun a => match a with | ⟨0, _⟩ => rfl | ⟨1, _⟩ => rfl)

/-- Column `512 + k` of the concatenation is column `k` of the second piece. -/
theorem cat_bot (x h : Arr Ideal S16384x512) (r : Fin 16384) (k : Fin 512) :
    val_main_v0 (F := Ideal) x h (ix2 r (bot k)) = h (ix2 r k) := by
  unfold val_main_v0
  exact concatenate_pair_apply_right _ x h _ (ix2 r (bot k)) rfl rfl (ix2 r k)
    (fun a ha => match a, ha with | ⟨0, _⟩, _ => rfl | ⟨1, _⟩, ha => absurd rfl ha)
    (by show k.val + 512 = 512 + k.val; omega)

/-! ## One gate's three layers at an index -/

/-- The first contraction plus its bias at row `r`, column `j`: the 1024-term sum splits into the input row against
    the first 512 rows of `W` and the hidden row against the last 512. -/
theorem lin_at (x h : Arr Ideal S16384x512) (W : Arr Ideal S1024x512) (b : Arr Ideal S512) (r : Fin 16384) (j : Fin 512) :
    val_main_v4 (F := Ideal) x h W b (ix2 r j) = lin (row x r) (row h r) (topHalf W) (botHalf W) b j := by
  rw [val_main_v4_apply, val_main_v1_apply, val_main_v3_apply, val_main_v2_apply, Ideal.addf_def, Cert.Cell.sum_halves]
  refine congrArg₂ (· + ·) (congrArg₂ (· + ·) (Finset.sum_congr rfl fun k _ => ?_) (Finset.sum_congr rfl fun k _ => ?_))
    (congrArg b (funext fun a => match a with | ⟨0, _⟩ => rfl))
  · have el : lidx_main_v1 (ix2 r j) (top k) = ix2 r (top k) := funext fun a => match a with | ⟨0, _⟩ => rfl | ⟨1, _⟩ => rfl
    have er : ridx_main_v1 (ix2 r j) (top k) = ix2 (top k) j := funext fun a => match a with | ⟨0, _⟩ => rfl | ⟨1, _⟩ => rfl
    rw [el, er, cat_top]; rfl
  · have el : lidx_main_v1 (ix2 r j) (bot k) = ix2 r (bot k) := funext fun a => match a with | ⟨0, _⟩ => rfl | ⟨1, _⟩ => rfl
    have er : ridx_main_v1 (ix2 r j) (bot k) = ix2 (bot k) j := funext fun a => match a with | ⟨0, _⟩ => rfl | ⟨1, _⟩ => rfl
    rw [el, er, cat_bot]; rfl

/-- The second contraction, its bias and the maximum with zero at row `r`, unit `q`. -/
theorem hid_at (x h : Arr Ideal S16384x512) (W : Arr Ideal S1024x512) (b : Arr Ideal S512) (W1 : Arr Ideal S512x16) (b1 : Arr Ideal S16)
    (r : Fin 16384) (q : Fin 16) :
    val_main_v9 (F := Ideal) x h W b W1 b1 (ix2 r q) = hid (row x r) (row h r) (topHalf W) (botHalf W) b W1 b1 q := by
  rw [val_main_v9_apply, val_main_v8_apply, val_main_v5_apply, val_main_v7_apply, val_main_v6_apply, val_main_call0_v0_apply,
    val_main_call0_cst_apply, Ideal.maximumf_def, Ideal.addf_def, Ideal.ofBits_def]
  refine congrArg₂ max (congrArg₂ (· + ·) (Finset.sum_congr rfl fun j _ => ?_)
    (congrArg b1 (funext fun a => match a with | ⟨0, _⟩ => rfl))) rfl
  have el : lidx_main_v5 (ix2 r q) j = ix2 r j := funext fun a => match a with | ⟨0, _⟩ => rfl | ⟨1, _⟩ => rfl
  have er : ridx_main_v5 (ix2 r q) j = ix2 j q := funext fun a => match a with | ⟨0, _⟩ => rfl | ⟨1, _⟩ => rfl
  rw [el, er, lin_at]

/-- The third contraction, its bias and tanh at row `r`: the gate's scalar of that row. -/
theorem gate_at (x h : Arr Ideal S16384x512) (W : Arr Ideal S1024x512) (b : Arr Ideal S512) (W1 : Arr Ideal S512x16) (b1 : Arr Ideal S16) (W2 : Arr Ideal S16x1) (b2 : Arr Ideal S1) (r : Fin 16384) :
    val_main_v14 (F := Ideal) x h W b W1 b1 W2 b2 (ix2 r (0 : Fin 1)) = gate ⟨W, b, W1, b1, W2, b2⟩ (row x r) (row h r) := by
  rw [val_main_v14_apply, val_main_v13_apply, val_main_v10_apply, val_main_v12_apply, val_main_v11_apply,
    Ideal.hostUnary_tanh_def, Ideal.addf_def]
  refine congrArg Ideal.tanh (congrArg₂ (· + ·) (Finset.sum_congr rfl fun q _ => ?_)
    (congrArg b2 (funext fun a => match a with | ⟨0, _⟩ => rfl)))
  have el : lidx_main_v10 (ix2 r (0 : Fin 1)) q = ix2 r q := funext fun a => match a with | ⟨0, _⟩ => rfl | ⟨1, _⟩ => rfl
  have er : ridx_main_v10 (ix2 r (0 : Fin 1)) q = ix2 q (0 : Fin 1) := funext fun a => match a with | ⟨0, _⟩ => rfl | ⟨1, _⟩ => rfl
  rw [el, er, hid_at]

/-- The logistic function of the gate's scalar at row `r`. -/
theorem sig_at (x h : Arr Ideal S16384x512) (W : Arr Ideal S1024x512) (b : Arr Ideal S512) (W1 : Arr Ideal S512x16) (b1 : Arr Ideal S16) (W2 : Arr Ideal S16x1) (b2 : Arr Ideal S1) (r : Fin 16384) :
    val_main_v20 (F := Ideal) x h W b W1 b1 W2 b2 (ix2 r (0 : Fin 1)) =
      Ideal.logistic (gate ⟨W, b, W1, b1, W2, b2⟩ (row x r) (row h r)) := by
  rw [val_main_v20_apply, val_main_v19_apply, val_main_cst_0_apply, val_main_v18_apply, val_main_v17_apply, val_main_cst_apply,
    val_main_v16_apply, val_main_v15_apply, gate_at, Ideal.hostDivf_def, Ideal.addf_def, Ideal.hostUnary_exp_def,
    Ideal.hostNegf_def, Ideal.negf_def, Ideal.ofBits_def]
  exact Cert.Cell.logistic_spelt _

/-! ## The four gates are one function -/

section Same
variable {F : FTy → Type} [FloatOps F]

/-- The input gate's stages are the forget gate's, applied to the input gate's weights. -/
theorem v34_eq (x h : Arr F S16384x512) (W : Arr F S1024x512) (b : Arr F S512) (W1 : Arr F S512x16) (b1 : Arr F S16) (W2 : Arr F S16x1) (b2 : Arr F S1) :
    val_main_v34 (F := F) x h W b W1 b1 W2 b2 = val_main_v14 (F := F) x h W b W1 b1 W2 b2 := rfl
/-- … and so are the update gate's … -/
theorem v54_eq (x h : Arr F S16384x512) (W : Arr F S1024x512) (b : Arr F S512) (W1 : Arr F S512x16) (b1 : Arr F S16) (W2 : Arr F S16x1) (b2 : Arr F S1) :
    val_main_v54 (F := F) x h W b W1 b1 W2 b2 = val_main_v14 (F := F) x h W b W1 b1 W2 b2 := rfl
/-- … and the output gate's. -/
theorem v69_eq (x h : Arr F S16384x512) (W : Arr F S1024x512) (b : Arr F S512) (W1 : Arr F S512x16) (b1 : Arr F S16) (W2 : Arr F S16x1) (b2 : Arr F S1) :
    val_main_v69 (F := F) x h W b W1 b1 W2 b2 = val_main_v14 (F := F) x h W b W1 b1 W2 b2 := rfl
/-- The input gate's logistic stages are the forget gate's. -/
theorem v40_eq (x h : Arr F S16384x512) (W : Arr F S1024x512) (b : Arr F S512) (W1 : Arr F S512x16) (b1 : Arr F S16) (W2 : Arr F S16x1) (b2 : Arr F S1) :
    val_main_v40 (F := F) x h W b W1 b1 W2 b2 = val_main_v20 (F := F) x h W b W1 b1 W2 b2 := rfl
/-- The output gate's logistic stages are the forget gate's. -/
theorem v75_eq (x h : Arr F S16384x512) (W : Arr F S1024x512) (b : Arr F S512) (W1 : Arr F S512x16) (b1 : Arr F S16) (W2 : Arr F S16x1) (b2 : Arr F S1) :
    val_main_v75 (F := F) x h W b W1 b1 W2 b2 = val_main_v20 (F := F) x h W b W1 b1 W2 b2 := rfl

end Same

/-! ## The two results at an index -/

/-- The new cell entry at row `r`, column `j`. -/
theorem c_at (x0 x1 x2 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S512x16, .f32⟩ : BufTy).Contents (Elt Ideal)) (x6 : (⟨S16, .f32⟩ : BufTy).Contents (Elt Ideal)) (x7 : (⟨S16x1, .f32⟩ : BufTy).Contents (Elt Ideal)) (x8 : (⟨S1, .f32⟩ : BufTy).Contents (Elt Ideal)) (x9 : (⟨S1024x512, .f32⟩ : BufTy).Contents (Elt Ideal)) (x10 : (⟨S512, .f32⟩ : BufTy).Contents (Elt Ideal)) (x11 : (⟨S512x16, .f32⟩ : BufTy).Contents (Elt Ideal)) (x12 : (⟨S16, .f32⟩ : BufTy).Contents (Elt Ideal)) (x13 : (⟨S16x1, .f32⟩ : BufTy).Contents (Elt Ideal)) (x14 : (⟨S1, .f32⟩ : BufTy).Contents (Elt Ideal)) (x15 : (⟨S1024x512, .f32⟩ : BufTy).Contents (Elt Ideal)) (x16 : (⟨S512, .f32⟩ : BufTy).Contents (Elt Ideal)) (x17 : (⟨S512x16, .f32⟩ : BufTy).Contents (Elt Ideal)) (x18 : (⟨S16, .f32⟩ : BufTy).Contents (Elt Ideal)) (x19 : (⟨S16x1, .f32⟩ : BufTy).Contents (Elt Ideal)) (x20 : (⟨S1, .f32⟩ : BufTy).Contents (Elt Ideal)) (r : Fin 16384) (j : Fin 512) :
    val_main_v80 (F := Ideal) x0 x1 x2 x3 x4 x5 x6 x7 x8 x9 x10 x11 x12 x13 x14 x15 x16 x17 x18 x19 x20 (ix2 r j) =
      cellOf (gate ⟨x3, x4, x5, x6, x7, x8⟩ (row x0 r) (row x1 r)) (gate ⟨x9, x10, x11, x12, x13, x14⟩ (row x0 r) (row x1 r))
        (gate ⟨x15, x16, x17, x18, x19, x20⟩ (row x0 r) (row x1 r)) (x2 (ix2 r j)) := by
  have e76 : idx_main_v76 (ix2 r j) = ix2 r (0 : Fin 1) := funext fun a => match a with | ⟨0, _⟩ => rfl | ⟨1, _⟩ => rfl
  have e79 : idx_main_v79 (ix2 r j) = ix2 r (0 : Fin 1) := funext fun a => match a with | ⟨0, _⟩ => rfl | ⟨1, _⟩ => rfl
  rw [val_main_v80_apply, val_main_v77_apply, val_main_v76_apply, val_main_v79_apply, val_main_v78_apply, e76, e79,
    val_main_v55_apply, v40_eq, v54_eq, sig_at, sig_at, gate_at]
  simp only [Ideal.addf_def, Ideal.mulf_def, Ideal.hostUnary_tanh_def]
  rfl

/-- The reference's second result (the new cell array) is the cell's `cArr` of the arguments. -/
theorem ref_c (x0 x1 x2 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S512x16, .f32⟩ : BufTy).Contents (Elt Ideal)) (x6 : (⟨S16, .f32⟩ : BufTy).Contents (Elt Ideal)) (x7 : (⟨S16x1, .f32⟩ : BufTy).Contents (Elt Ideal)) (x8 : (⟨S1, .f32⟩ : BufTy).Contents (Elt Ideal)) (x9 : (⟨S1024x512, .f32⟩ : BufTy).Contents (Elt Ideal)) (x10 : (⟨S512, .f32⟩ : BufTy).Contents (Elt Ideal)) (x11 : (⟨S512x16, .f32⟩ : BufTy).Contents (Elt Ideal)) (x12 : (⟨S16, .f32⟩ : BufTy).Contents (Elt Ideal)) (x13 : (⟨S16x1, .f32⟩ : BufTy).Contents (Elt Ideal)) (x14 : (⟨S1, .f32⟩ : BufTy).Contents (Elt Ideal)) (x15 : (⟨S1024x512, .f32⟩ : BufTy).Contents (Elt Ideal)) (x16 : (⟨S512, .f32⟩ : BufTy).Contents (Elt Ideal)) (x17 : (⟨S512x16, .f32⟩ : BufTy).Contents (Elt Ideal)) (x18 : (⟨S16, .f32⟩ : BufTy).Contents (Elt Ideal)) (x19 : (⟨S16x1, .f32⟩ : BufTy).Contents (Elt Ideal)) (x20 : (⟨S1, .f32⟩ : BufTy).Contents (Elt Ideal)) :
    val_main_v80 (F := Ideal) x0 x1 x2 x3 x4 x5 x6 x7 x8 x9 x10 x11 x12 x13 x14 x15 x16 x17 x18 x19 x20 = cArr ⟨x3, x4, x5, x6, x7, x8⟩ ⟨x9, x10, x11, x12, x13, x14⟩ ⟨x15, x16, x17, x18, x19, x20⟩ x0 x1 x2 := by
  funext i
  obtain ⟨r, j, rfl⟩ : ∃ (r : Fin 16384) (j : Fin 512), i = ix2 r j := ⟨i 0, i 1, eq_ix2 i⟩
  exact c_at x0 x1 x2 x3 x4 x5 x6 x7 x8 x9 x10 x11 x12 x13 x14 x15 x16 x17 x18 x19 x20 r j

/-- The reference's first result (the new hidden array) is the cell's `hArr` of the arguments. -/
theorem ref_h (x0 x1 x2 : (⟨S16384x512, .f32⟩ : BufTy).Contents (Elt Ideal)) (x3 : (⟨S1024x512, .f32⟩ : BufTy).Contents (Elt Ideal)) (x4 : (⟨S512, .f32⟩ : BufTy).Contents (Elt Ideal)) (x5 : (⟨S512x16, .f32⟩ : BufTy).Contents (Elt Ideal)) (x6 : (⟨S16, .f32⟩ : BufTy).Contents (Elt Ideal)) (x7 : (⟨S16x1, .f32⟩ : BufTy).Contents (Elt Ideal)) (x8 : (⟨S1, .f32⟩ : BufTy).Contents (Elt Ideal)) (x9 : (⟨S1024x512, .f32⟩ : BufTy).Contents (Elt Ideal)) (x10 : (⟨S512, .f32⟩ : BufTy).Contents (Elt Ideal)) (x11 : (⟨S512x16, .f32⟩ : BufTy).Contents (Elt Ideal)) (x12 : (⟨S16, .f32⟩ : BufTy).Contents (Elt Ideal)) (x13 : (⟨S16x1, .f32⟩ : BufTy).Contents (Elt Ideal)) (x14 : (⟨S1, .f32⟩ : BufTy).Contents (Elt Ideal)) (x15 : (⟨S1024x512, .f32⟩ : BufTy).Contents (Elt Ideal)) (x16 : (⟨S512, .f32⟩ : BufTy).Contents (Elt Ideal)) (x17 : (⟨S512x16, .f32⟩ : BufTy).Contents (Elt Ideal)) (x18 : (⟨S16, .f32⟩ : BufTy).Contents (Elt Ideal)) (x19 : (⟨S16x1, .f32⟩ : BufTy).Contents (Elt Ideal)) (x20 : (⟨S1, .f32⟩ : BufTy).Contents (Elt Ideal)) (x21 : (⟨S1024x512, .f32⟩ : BufTy).Contents (Elt Ideal)) (x22 : (⟨S512, .f32⟩ : BufTy).Contents (Elt Ideal)) (x23 : (⟨S512x16, .f32⟩ : BufTy).Contents (Elt Ideal)) (x24 : (⟨S16, .f32⟩ : BufTy).Contents (Elt Ideal)) (x25 : (⟨S16x1, .f32⟩ : BufTy).Contents (Elt Ideal)) (x26 : (⟨S1, .f32⟩ : BufTy).Contents (Elt Ideal)) :
    val_main_v83 (F := Ideal) x0 x1 x2 x3 x4 x5 x6 x7 x8 x9 x10 x11 x12 x13 x14 x15 x16 x17 x18 x19 x20 x21 x22 x23 x24 x25 x26 = hArr ⟨x3, x4, x5, x6, x7, x8⟩ ⟨x9, x10, x11, x12, x13, x14⟩ ⟨x15, x16, x17, x18, x19, x20⟩ ⟨x21, x22, x23, x24, x25, x26⟩ x0 x1 x2 := by
  funext i
  obtain ⟨r, j, rfl⟩ : ∃ (r : Fin 16384) (j : Fin 512), i = ix2 r j := ⟨i 0, i 1, eq_ix2 i⟩
  have e82 : idx_main_v82 (ix2 r j) = ix2 r (0 : Fin 1) := funext fun a => match a with | ⟨0, _⟩ => rfl | ⟨1, _⟩ => rfl
  rw [val_main_v83_apply, val_main_v82_apply, val_main_v81_apply, e82, v75_eq, sig_at, c_at]
  simp only [Ideal.mulf_def, Ideal.hostUnary_tanh_def]
  rfl

end Cert.ReferenceIdeal.RefCell

end
-- ==== Proof.lean ====
/-
  The certificate of the fused LSTM-cell kernel against its jnp reference.

  Both programs, read on the extended reals, compute for every batch row r and column j
      c'[r, j] = σ(gate_f(r)) · c[r, j] + σ(gate_i(r)) · tanh(gate_u(r)),      h'[r, j] = σ(gate_o(r)) · tanh(c'[r, j]),
  where each gate scalar is tanh of a two-layer rectified network applied to the affine image of the row [x[r, :], h[r, :]]
  (`Cell.gate`). The kernel works on 64 blocks of 256 rows and multiplies the x row with the first 512 rows of each
  gate matrix and the h row with the last 512; the reference concatenates x and h and contracts over all 1024 at once.
  The one law between them is that a 1024-term sum is the sum of its two 512-term halves, valid for any extended
  reals, so the precondition (finite inputs) is never opened. The kernel writes σ as one logistic operation, the
  reference as 1 / (1 + exp(−·)); these are one function on the extended reals by definition.

  The three frames: the kernel's two (at the word level and at the ideal instance) are the frame certificates of the
  two printed programs; the reference's is its run with the results dropped. Nothing was rewritten by the ideal
  pass, so `preserves` holds trivially. `algebraic`: the kernel's run ends with the two results at `Cell.hArr` and
  `Cell.cArr` of the arguments (KerRun), and the reference's two results, stage by stage, are the same arrays (RefCell).
-/
import proofs.«105010_j65481071407962_1_alg».proof.Defs
import proofs.«105010_j65481071407962_1_alg».proof.Proof.Gen.Kernel
import proofs.«105010_j65481071407962_1_alg».proof.Proof.KernelFrame
import proofs.«105010_j65481071407962_1_alg».proof.Proof.Gen.KernelIdeal
import proofs.«105010_j65481071407962_1_alg».proof.Proof.KernelIdealFrame
import proofs.«105010_j65481071407962_1_alg».proof.Proof.KernelIdealValue
import proofs.«105010_j65481071407962_1_alg».proof.Proof.KerRun
import proofs.«105010_j65481071407962_1_alg».proof.Proof.Gen.ReferenceIdeal
import proofs.«105010_j65481071407962_1_alg».proof.Proof.Gen.ReferenceIdeal.Run
import proofs.«105010_j65481071407962_1_alg».proof.Proof.Gen.ReferenceIdeal.Read
import proofs.«105010_j65481071407962_1_alg».proof.Proof.RefCell
import proofs.«105010_j65481071407962_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel terminates without a fault and leaves its arguments unchanged. -/
theorem frame_kernel : Cert.frame_Kernel (hKernel := Cert.Kernel.Gen.facts) (hPre_finite_inputs := Cert.Pre_finite_inputs.Gen.facts) :=
  fun m ρ _ => Cert.Kernel.GenP.frame m ρ

/-- So does the kernel at the ideal instance. -/
theorem frame_kernelIdeal : Cert.frame_KernelIdeal (hKernelIdeal := Cert.KernelIdeal.Gen.facts) (hPre_finite_inputs := Cert.Pre_finite_inputs.Gen.facts) :=
  fun m ρ _ => Cert.KernelIdeal.GenP.frame m ρ

/-- The reference's frame is its run with the two results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

set_option maxHeartbeats 1000000 in
/-- From memories that agree on the 27 arguments both programs end with the new hidden array and the new cell
    array of the row-wise cell. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KerRun.hOut m c, fun c => Cert.KernelIdeal.KerRun.cOut m c, Cert.KernelIdeal.KerRun.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12, a13, a14, a15, a16, a17, a18, a19, a20, a21, a22, a23, a24, a25, a26⟩ := hagree c
  refine ⟨?_, ?_, (h c).2.2⟩
  · rw [(h c).1, Cert.ReferenceIdeal.Read.val_main_v83_eq, Cert.ReferenceIdeal.RefCell.ref_h]
    simp only [a0, a1, a2, a3, a4, a5, a6, a7, a8, a9, a10, a11, a12, a13, a14, a15, a16, a17, a18, a19, a20, a21, a22, a23, a24, a25, a26]
  · rw [(h c).2.1, Cert.ReferenceIdeal.Read.val_main_v80_eq, Cert.ReferenceIdeal.RefCell.ref_c]
    simp only [a0, a1, a2, a3, a4, a5, a6, a7, a8, a9, a10, a11, a12, a13, a14, a15, a16, a17, a18, a19, a20]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
